-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024 : Shape := ⟨1, ![1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x2048x1024 .f32) (main_arg1 : FVec F S8x2048x1024 .f32) (main_arg2 : FVec F S1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x2048x1024 : Shape := ⟨3, ![8, 2048, 1024]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x256x1024 : Shape := ⟨3, ![1, 256, 1024]⟩
abbrev S1x2048x1024 : Shape := ⟨3, ![1, 2048, 1024]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩

abbrev nBuf : Space → Nat
  | .hbm => 19
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S8x2048x1024, .bf16⟩
  | .hbm, ⟨17, _⟩ => ⟨S8x2048x1024, .f32⟩
  | .hbm, ⟨18, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x2048x1024, .bf16⟩
  | .local _ .vmem, ⟨11, _⟩ => ⟨S1x2048x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x2048x1024, .f32⟩
  | .local _ .vmem, ⟨19, _⟩ => ⟨S1x2048x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2048x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S1024_S1x1024 : S1024.ShapeCasts S1x1024
  transposes_S1024x1024_S1024x1024_1_0 : S1024x1024.Transposes [1, 0] S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x1024_S512 : S512x1024.Reduces [1] S512
  shapeCasts_S512_S512x1 : S512.ShapeCasts S512x1
  broadcasts_S512x1_S512x1024 : S512x1.Broadcasts S512x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  reduces_S256x2048_S256 : S256x2048.Reduces [1] S256
  broadcasts_S256x1_S256x2048 : S256x1.Broadcasts S256x2048
  shapeCasts_S256x1024_S1x256x1024 : S256x1024.ShapeCasts S1x256x1024
  slices_S256x2048_o0_0_S256x512 : S256x2048.Slices ![0, 0] S256x512
  inb_S1x2048x1024_S1x512x1024_0_0_0 : ∀ a, (![0, 0, 0] : Fin 3 → Nat) a + S1x512x1024.size a ≤ S1x2048x1024.size a
  slices_S256x2048_o0_512_S256x512 : S256x2048.Slices ![0, 512] S256x512
  inb_S1x2048x1024_S1x512x1024_0_512_0 : ∀ a, (![0, 512, 0] : Fin 3 → Nat) a + S1x512x1024.size a ≤ S1x2048x1024.size a
  slices_S256x2048_o0_1024_S256x512 : S256x2048.Slices ![0, 1024] S256x512
  inb_S1x2048x1024_S1x512x1024_0_1024_0 : ∀ a, (![0, 1024, 0] : Fin 3 → Nat) a + S1x512x1024.size a ≤ S1x2048x1024.size a
  slices_S256x2048_o0_1536_S256x512 : S256x2048.Slices ![0, 1536] S256x512
  inb_S1x2048x1024_S1x512x1024_0_1536_0 : ∀ a, (![0, 1536, 0] : Fin 3 → Nat) a + S1x512x1024.size a ≤ S1x2048x1024.size a
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x512_S256x1024_S512x1024_0_0_1_1_n_n_wf : DotDims.WF S256x512 S256x1024 S512x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .bf16 = 32 ∨ (Rect.block (s := S8x2048x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .f32 = 32 ∨ (Rect.block (s := S8x2048x1024) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S8x2048x1024.size a
  hwx1_6 : ∀ i : grid1.Coords, EltTy.bits .f32 = 32 ∨ (Rect.block (s := S8x2048x1024) S1x256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x1024.size a ≤ S8x2048x1024.size a
  hwx1_7 : ∀ i : grid1.Coords, EltTy.bits .f32 = 32 ∨ (Rect.block (s := S8x2048x1024) S1x2048x1024.size (cc1_transform_7 i) (hinb1_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x512_S256x1024_S512x1024_0_0_1_1_n_n : DotDims S256x512 S256x1024 S512x1024 where
  lhsContracting := [0]
  rhsContracting := [0]
  lhsNonContracting := [1]
  rhsNonContracting := [1]
  lhsBatch := []
  rhsBatch := []
  wf := dot_S256x512_S256x1024_S512x1024_0_0_1_1_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9_0) S1x256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v9_1) S1x2048x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024 : Shape := ⟨1, ![1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x1024, .f32⟩
  | .hbm, ⟨59, _⟩ => ⟨S8x2048x1024, .f32⟩
  | .hbm, ⟨60, _⟩ => ⟨S1x1x1024, .f32⟩
  | .hbm, ⟨61, _⟩ => ⟨S8x2048x1024, .f32⟩
  | .hbm, ⟨62, _⟩ => ⟨S8x2048x1024, .f32⟩
  | .hbm, ⟨63, _⟩ => ⟨S1x1x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | .hbm, ⟨74, _⟩ => ⟨S8x2048x2048, .f32⟩
  | .hbm, ⟨75, _⟩ => ⟨S_, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048, .f32⟩
  | .hbm, ⟨80, _⟩ => ⟨S_, .f32⟩
  | .hbm, ⟨81, _⟩ => ⟨S8x2048, .f32⟩
  | .hbm, ⟨82, _⟩ => ⟨S8x2048, .f32⟩
  | .hbm, ⟨83, _⟩ => ⟨S8x2048x1, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x1, .f32⟩
  | .hbm, ⟨90, _⟩ => ⟨S8x2048x2048, .f32⟩
  | .hbm, ⟨91, _⟩ => ⟨S8x2048x2048, .f32⟩
  | .hbm, ⟨92, _⟩ => ⟨S8x2048x1024, .f32⟩
  | .hbm, ⟨93, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]

class Facts₀ : Prop where
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x2048_S8x2048x1024_S8x2048x1024_1_1_2_2_0_0_wf : DotDims.WF S8x2048x2048 S8x2048x1024 S8x2048x1024 [1] [1] [2] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x2048_S8x2048x1024_S8x2048x1024_1_1_2_2_0_0 : DotDims S8x2048x2048 S8x2048x1024 S8x2048x1024 where
  lhsContracting := [1]
  rhsContracting := [1]
  lhsNonContracting := [2]
  rhsNonContracting := [2]
  lhsBatch := [0]
  rhsBatch := [0]
  wf := dot_S8x2048x2048_S8x2048x1024_S8x2048x1024_1_1_2_2_0_0_wf

class Facts : Prop extends Facts₀ where

variable [Facts]
-- ==== Proof.HostReads.lean ====
/-
  What the two regions find when they are entered. Before the first region @main reshapes the scale, the shift and the
  two biases to rows [1, 1024] and transposes the two weight matrices; the first region leaves every array but its
  result as it found it.
-/
import proofs.«423824_j47811575939396_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.HostReads

open Idealize.ShloMosaic Idealize.ShloMosaic.TcCoe Idealize.SL.Sem Idealize.ShloMosaic.ValueIdx
open Cert.KernelIdeal Cert.KernelIdeal.Gen
open Idealize.ShloMosaic.StableHlo

variable (m : (ℓ : Loc nD τ sig) → Buf (Elt Ideal) ℓ) (ρ : Dev nD → PrngReg) (c : Dev nD)

/-- A row [1, 1024] made by reshaping a vector [1024] reads the vector. -/
theorem row_apply (x : S1024.Idx → EReal) (d : Fin 1024) :
    shapeCast S1x1024 x shapeCasts_S1024_S1x1024 (ix2 (0 : Fin 1) d) = x (ix1 d) := by
  refine shapeCast_apply x _ _ _ ?_
  rw [Shape.rowMajor_val_one, Shape.rowMajor_val_two]
  show d.val = 0 * 1024 + d.val
  omega

/-- A transposed matrix reads the matrix at the swapped pair (a change of float format is the identity here). -/
theorem transposed_apply (x : S1024x1024.Idx → EReal) (d e : Fin 1024) :
    (truncf .bf16 (transpose S1024x1024 [1, 0] x transposes_S1024x1024_S1024x1024_1_0 : FVec Ideal S1024x1024 .f32) bitsLt_bf16_f32
      : FVec Ideal S1024x1024 .bf16) (ix2 d e) = x (ix2 e d) := by
  rw [truncf_apply]
  refine transpose_apply _ x _ _ (ix2 e d) fun b => ?_
  match b with
  | ⟨0, _⟩ => rfl
  | ⟨1, _⟩ => rfl

/-! ## At the first region's entry -/

theorem V1_arg1 : (V1 m ρ c main_arg1 : S8x2048x1024.Idx → EReal) = m ((c.tc : Thread nD τ).loc main_arg1) := by
  dsimp only [V1, W1, hostOps0]; after_results
theorem V1_arg0 : (V1 m ρ c main_arg0 : S8x2048x1024.Idx → EReal) = m ((c.tc : Thread nD τ).loc main_arg0) := by
  dsimp only [V1, W1, hostOps0]; after_results
theorem V1_v0 : (V1 m ρ c main_v0 : S1x1024.Idx → EReal) = shapeCast S1x1024 (m ((c.tc : Thread nD τ).loc main_arg2)) shapeCasts_S1024_S1x1024 := by
  dsimp only [V1, W1, hostOps0]; after_results; rfl
theorem V1_v1 : (V1 m ρ c main_v1 : S1x1024.Idx → EReal) = shapeCast S1x1024 (m ((c.tc : Thread nD τ).loc main_arg3)) shapeCasts_S1024_S1x1024 := by
  dsimp only [V1, W1, hostOps0]; after_results; rfl
theorem V1_v2 : (V1 m ρ c main_v2 : S1x1024.Idx → EReal) = shapeCast S1x1024 (m ((c.tc : Thread nD τ).loc main_arg5)) shapeCasts_S1024_S1x1024 := by
  dsimp only [V1, W1, hostOps0]; after_results; rfl
theorem V1_v3 : (V1 m ρ c main_v3 : S1x1024.Idx → EReal) = shapeCast S1x1024 (m ((c.tc : Thread nD τ).loc main_arg7)) shapeCasts_S1024_S1x1024 := by
  dsimp only [V1, W1, hostOps0]; after_results; rfl
theorem V1_v5 : (V1 m ρ c main_v5 : S1024x1024.Idx → EReal)
    = (truncf .bf16 (transpose S1024x1024 [1, 0] (m ((c.tc : Thread nD τ).loc main_arg4)) transposes_S1024x1024_S1024x1024_1_0 : FVec Ideal S1024x1024 .f32) bitsLt_bf16_f32 : FVec Ideal S1024x1024 .bf16) := by
  dsimp only [V1, W1, hostOps0]; after_results
theorem V1_v7 : (V1 m ρ c main_v7 : S1024x1024.Idx → EReal)
    = (truncf .bf16 (transpose S1024x1024 [1, 0] (m ((c.tc : Thread nD τ).loc main_arg6)) transposes_S1024x1024_S1024x1024_1_0 : FVec Ideal S1024x1024 .f32) bitsLt_bf16_f32 : FVec Ideal S1024x1024 .bf16) := by
  dsimp only [V1, W1, hostOps0]; after_results

/-! ## At the second region's entry: the first region's inputs and the arrays it does not touch are as it found them -/

theorem V2_arg0 : V2 m ρ c main_arg0 = V1 m ρ c main_arg0 := W2_of_ne m ρ c main_arg0 (by decide)
theorem V2_v5 : V2 m ρ c main_v5 = V1 m ρ c main_v5 := W2_of_ne m ρ c main_v5 (by decide)
theorem V2_v2 : V2 m ρ c main_v2 = V1 m ρ c main_v2 := W2_of_ne m ρ c main_v2 (by decide)
theorem V2_v0 : V2 m ρ c main_v0 = V1 m ρ c main_v0 :=
  (W2_arr m ρ c 1).trans (((dat0 (V1 m ρ) c).arrAt_in 1 rfl _).trans (A_eq0 (V1 m ρ) c 1))
theorem V2_v1 : V2 m ρ c main_v1 = V1 m ρ c main_v1 :=
  (W2_arr m ρ c 2).trans (((dat0 (V1 m ρ) c).arrAt_in 2 rfl _).trans (A_eq0 (V1 m ρ) c 2))
/-- and its result array holds what its write-backs leave. -/
theorem V2_v8 : V2 m ρ c main_v8 = (dat0 (V1 m ρ) c).arrAt 5 cfg0.N := W2_arr m ρ c 5

/-! ## After the second region -/

theorem W3_v9_0 : W3 m ρ c (Proc.devRef .tc main_v9_0) = (dat1 (V2 m ρ) c).arrAt 6 cfg1.N := W3_arr m ρ c 6
theorem W3_v9_1 : W3 m ρ c (Proc.devRef .tc main_v9_1) = (dat1 (V2 m ρ) c).arrAt 7 cfg1.N := W3_arr m ρ c 7

end Cert.KernelIdeal.HostReads

end
-- ==== Proof.Spec.lean ====
/-
  The mathematics both programs compute, stated once over plain index types.

  A row `x : Fin 1024 → EReal` is normalised (mean, centred values, variance, the reciprocal square root of
  variance + ε, scale and shift) and projected by a 1024 × 1024 matrix plus a bias. With `p` one projected image
  row and `T` the 2048 projected text rows of the same batch entry, the attention weights of `p` are the softmax of
  the scaled scores `⟨p, T t⟩ / 32`. The first program scales `p` before the inner product, keeps the
  unnormalised exponentials, and multiplies by the reciprocal of their sum AFTER the weighted sum over `t`
  (image side) or folds it into `p` (text side, summed over eight tiles of 256 rows). The second program scales the
  inner product, divides each exponential by the sum, and sums over all 2048 rows at once. The two agree wherever
  the projected rows are real numbers (Bridge).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The five float words both programs spell: 1024, ε, 1/32, 1 and -∞. -/
abbrev cN : EReal := Ideal.ofBits .f32 0x44800000#32
abbrev cEps : EReal := Ideal.ofBits .f32 0x3727C5AC#32
abbrev cScale : EReal := Ideal.ofBits .f32 0x3D000000#32
abbrev cOne : EReal := Ideal.ofBits .f32 0x3F800000#32
abbrev cNegInf : EReal := Ideal.ofBits .f32 0xFF800000#32

/-! ## One row: normalisation and projection -/

/-- The mean of a row of 1024 entries. -/
def mean (x : Fin 1024 → EReal) : EReal := Ideal.div (∑ d, x d) cN

/-- The row with its mean taken off. -/
def centred (x : Fin 1024 → EReal) (d : Fin 1024) : EReal := x d - mean x

/-- The mean of the squared centred entries. -/
def variance (x : Fin 1024 → EReal) : EReal := Ideal.div (∑ d, centred x d * centred x d) cN

/-- The normalised row: centred, times the reciprocal square root of variance + ε, times the scale, plus the shift. -/
def lnorm (x w b : Fin 1024 → EReal) (d : Fin 1024) : EReal :=
  centred x d * Ideal.rsqrt (variance x + cEps) * w d + b d

/-- The normalised row against row `e` of the weight matrix, plus the bias. -/
def proj (x w b : Fin 1024 → EReal) (W : Fin 1024 → Fin 1024 → EReal) (bias : Fin 1024 → EReal) (e : Fin 1024) : EReal :=
  (∑ d, lnorm x w b d * W e d) + bias e

/-! ## One projected image row `p` against the projected text rows `T`: the first program's arrangement -/

section Row
variable (p : Fin 1024 → EReal) (T : Fin 2048 → Fin 1024 → EReal)

/-- The score of text row `t`: `p` scaled first, then the inner product. -/
def scoreK (t : Fin 2048) : EReal := ∑ e, (p e * cScale) * T t e
/-- The largest score, folded from -∞. -/
def rowMaxK : EReal := (Finset.univ : Finset (Fin 2048)).fold max cNegInf (scoreK p T)
/-- The unnormalised weight of text row `t`. -/
def probK (t : Fin 2048) : EReal := Ideal.exp (scoreK p T t - rowMaxK p T)
/-- Their sum. -/
def denomK : EReal := ∑ t, probK p T t
/-- The reciprocal of the sum. -/
def recipK : EReal := Ideal.div cOne (denomK p T)
/-- The image-side result: the weighted sum of text rows, normalised afterwards. -/
def imgRowK (e : Fin 1024) : EReal := (∑ t, probK p T t * T t e) * recipK p T
/-- What this image row adds to the text-side result at `(t, e)`: its weight for `t` times `p e` already normalised. -/
def weightK (t : Fin 2048) (e : Fin 1024) : EReal := probK p T t * (p e * recipK p T)

/-! ## The same row: the second program's arrangement -/

/-- The score of text row `t`: the inner product first, then the scale. -/
def scoreR (t : Fin 2048) : EReal := (∑ e, p e * T t e) * cScale
/-- The largest score, folded from -∞, and once more against -∞. -/
def rowMaxR : EReal := max cNegInf ((Finset.univ : Finset (Fin 2048)).fold max cNegInf (scoreR p T))
/-- The unnormalised weight. -/
def probR (t : Fin 2048) : EReal := Ideal.exp (scoreR p T t - rowMaxR p T)
/-- Their sum. -/
def denomR : EReal := ∑ t, probR p T t
/-- The softmax weight of text row `t`. -/
def attnR (t : Fin 2048) : EReal := Ideal.div (probR p T t) (denomR p T)
/-- The image-side result: the softmax-weighted sum of text rows. -/
def imgRowR (e : Fin 1024) : EReal := ∑ t, attnR p T t * T t e

end Row

/-- Row `s'` of tile `j` of 256 rows (total: read modulo 2048, the identity for the eight tiles there are). -/
def rowOf (j : ℕ) (s' : Fin 256) : Fin 2048 := ⟨(256 * j + s'.val) % 2048, Nat.mod_lt _ (by norm_num)⟩

/-! ## The arrays -/

section Arrays
variable (img txt : (⟨3, ![8, 2048, 1024]⟩ : Shape).Idx → EReal) (lw lb : (⟨1, ![1024]⟩ : Shape).Idx → EReal)
  (Wi : (⟨2, ![1024, 1024]⟩ : Shape).Idx → EReal) (bi : (⟨1, ![1024]⟩ : Shape).Idx → EReal)
  (Wt : (⟨2, ![1024, 1024]⟩ : Shape).Idx → EReal) (bt : (⟨1, ![1024]⟩ : Shape).Idx → EReal)

/-- A tower's projected rows: row `s` of batch entry `b` of `x`, normalised with `lw`, `lb` and projected by `W`, `bias`. -/
def projArr (x : (⟨3, ![8, 2048, 1024]⟩ : Shape).Idx → EReal) (W : (⟨2, ![1024, 1024]⟩ : Shape).Idx → EReal)
    (bias : (⟨1, ![1024]⟩ : Shape).Idx → EReal) (b : Fin 8) (s : Fin 2048) (e : Fin 1024) : EReal :=
  proj (fun d => x (ix3 b s d)) (fun d => lw (ix1 d)) (fun d => lb (ix1 d)) (fun e d => W (ix2 e d)) (fun e => bias (ix1 e)) e

/-- The projected image rows. -/
abbrev ipArr : Fin 8 → Fin 2048 → Fin 1024 → EReal := projArr lw lb img Wi bi
/-- The projected text rows. -/
abbrev tpArr : Fin 8 → Fin 2048 → Fin 1024 → EReal := projArr lw lb txt Wt bt

/-- The first program's image-side result. -/
def imageOutK (b : Fin 8) (s : Fin 2048) (e : Fin 1024) : EReal :=
  imgRowK (ipArr img lw lb Wi bi b s) (tpArr txt lw lb Wt bt b) e
/-- The first program's text-side result: from zero, the eight tiles' sums added in order. -/
def textOutK (b : Fin 8) (t : Fin 2048) (e : Fin 1024) : EReal :=
  0 + ∑ j ∈ Finset.range 8, ∑ s' : Fin 256, weightK (ipArr img lw lb Wi bi b (rowOf j s')) (tpArr txt lw lb Wt bt b) t e
/-- The second program's image-side result. -/
def imageOutR (b : Fin 8) (s : Fin 2048) (e : Fin 1024) : EReal :=
  imgRowR (ipArr img lw lb Wi bi b s) (tpArr txt lw lb Wt bt b) e
/-- The second program's text-side result: one sum over all 2048 image rows. -/
def textOutR (b : Fin 8) (t : Fin 2048) (e : Fin 1024) : EReal :=
  ∑ s, attnR (ipArr img lw lb Wi bi b s) (tpArr txt lw lb Wt bt b) t * ipArr img lw lb Wi bi b s e

end Arrays

end Cert.Spec

end
-- ==== Proof.Region0.lean ====
/-
  The first kernel's result array: block (b, st) of 512 text rows is normalised and projected row by row, and the 32
  blocks tile the [8, 2048, 1024] array; so entry (b, t, e) is the projection of text row (b, t) at e.
-/
import proofs.«423824_j47811575939396_3_alg».proof.Proof.Gen.KernelIdeal.Frame
import proofs.«423824_j47811575939396_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen

/-! ## Layout operations of the body read at an index -/

variable {α : Type}

/-- A column `[a]` cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row sum of a `[512, 1024]` vector, kept as a column: at row `r` the sum of that row's entries. -/
theorem rowSum_apply (src : FVec Ideal S512x1024 .f32) (hφ : FTy.f32 = FTy.f32 ∨ FTy.f32 = FTy.bf16)
    (hacc : (0x00000000#32 : BitVec 32) = 0x00000000#32) (r : Fin 512) (u : Fin 1) :
    shapeCast S512x1 (multiReduction .add [1] S512 src 0x00000000#32 reduces_S512x1024_S512 hφ hacc) shapeCasts_S512_S512x1 (ix2 r u)
      = ∑ d : Fin 1024, src (ix2 r d) := by
  rw [shapeCast_a_a1_apply]
  refine (Ideal.multiReduction_add_single src 0x00000000#32 reduces_S512x1024_S512 hφ hacc (ix1 r)).trans ?_
  refine Finset.sum_congr rfl fun d _ => congrArg src ?_
  funext a
  match a with
  | ⟨0, _⟩ => rfl
  | ⟨1, _⟩ => rfl

/-! ## The block product read at an index -/

theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into the zero accumulator, at `(r, e)`: row `r` of the left factor against column `e` of the right. -/
theorem matmul_zero_apply (A : FVec Ideal S512x1024 .bf16) (B : FVec Ideal S1024x1024 .bf16) (r : Fin 512) (e : Fin 1024) :
    matmul dot_S512x1024_S1024x1024_S512x1024_1_0_0_1_n_n none A B (constant (F := Ideal) S512x1024 .f32 0x00000000#32) (ix2 r e)
      = ∑ d : Fin 1024, A (ix2 r d) * B (ix2 d e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun a => Fin.ext (by
    match a with
    | ⟨0, _⟩ => exact (rhs_dot_0 _ _).trans hk
    | ⟨1, _⟩ => exact rhs_dot_1 _ _)
  rw [el, er]

/-! ## The body's arithmetic at an index -/

/-- A reciprocal square root taken entry by entry. -/
theorem rsqrt_apply {s : Shape} {φ : FTy} (a : FVec Ideal s φ) (i : s.Idx) : rsqrt a i = Ideal.rsqrt (a i) := rfl

/-- The body's result at row `r`, column `e` of its block: the loaded row normalised and projected. -/
theorem pay_apply (x0 : Vec Ideal S1x512x1024 .f32) (x1 x2 : Vec Ideal S1x1024 .f32) (x3 : Vec Ideal S1024x1024 .bf16)
    (x4 : Vec Ideal S1x1024 .f32) (r : Fin 512) (e : Fin 1024) :
    k0_pay1 (F := Ideal) x0 x1 x2 x3 x4 (ix3 (0 : Fin 1) r e)
      = Cert.Spec.proj (fun d => x0 (ix3 (0 : Fin 1) r d)) (fun d => x1 (ix2 (0 : Fin 1) d)) (fun d => x2 (ix2 (0 : Fin 1) d))
          (fun e d => x3 (ix2 d e)) (fun e => x4 (ix2 (0 : Fin 1) e)) e := by
  unfold k0_pay1
  rw [shapeCast_ab_1ab_apply]
  simp only [truncf_apply, addf_apply, mulf_apply, subf_apply, divf_apply, rsqrt_apply, broadcast_apply, matmul_zero_apply,
    broadcastTo_1b_ab_apply, broadcastTo_a1_ab_apply, shapeCast_self, rowSum_apply, shapeCast_1ab_ab_apply]
  rw [rowSum_apply, rowSum_apply]
  simp only [mulf_apply, subf_apply, divf_apply, broadcast_apply, broadcastTo_a1_ab_apply, shapeCast_1ab_ab_apply]
  rw [rowSum_apply]
  simp only [shapeCast_1ab_ab_apply]
  rfl

/-! ## The whole result array, and each point's block of it -/

/-- The array the region leaves: entry `(b, t, e)` is text row `(b, t)` normalised and projected, at `e`. -/
def projText (TXT : Fin 8 → Fin 2048 → Fin 1024 → EReal) (LW LB : Fin 1024 → EReal) (WT : Fin 1024 → Fin 1024 → EReal)
    (BT : Fin 1024 → EReal) : S8x2048x1024.Idx → EReal :=
  fun i => Cert.Spec.proj (TXT (i 0) (i 1)) LW LB WT BT (i 2)

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the grid: point `t` is batch entry `t / 4`, row block `t % 4`; the text block and the result
    block sit there, the other four windows at the origin. -/
theorem idx_facts : ∀ t : Fin cfg0.N,
    win0_0.index t (0 : Fin 3) = t.val / 4 ∧ win0_0.index t (1 : Fin 3) = t.val % 4 ∧ win0_0.index t (2 : Fin 3) = 0
    ∧ win0_5.index t (0 : Fin 3) = t.val / 4 ∧ win0_5.index t (1 : Fin 3) = t.val % 4 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The text window's block at point `t`: row `r` of the block is row `512 (t % 4) + r` of batch entry `t / 4`. -/
theorem read_text (V : (c : Dev nD) → (b : Ref sig .tc) → Buf (Elt Ideal) ((c : Thread nD τ).loc b)) (c : Dev nD)
    (t : Fin cfg0.N) (r : Fin 512) (d : Fin 1024) (b : Fin 8) (s : Fin 2048)
    (hb : b.val = t.val / 4) (hs : s.val = 512 * (t.val % 4) + r.val) :
    (iblk0 V c 0 t : Vec Ideal S1x512x1024 .f32) (ix3 (0 : Fin 1) r d)
      = (V c main_arg1 : S8x2048x1024.Idx → EReal) (ix3 b s d) := by
  obtain ⟨e0, e1, e2, -⟩ := idx_facts t
  unfold iblk0
  rw [View.read_apply]
  show V c main_arg1 (((cfg0.win 0).blk t).view.emb (ix3 (0 : Fin 1) r d)) = _
  congr 1
  funext a
  apply Fin.ext
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 1024 + 1 * d.val = d.val; omega

/-- The scale window's block at any point is the whole row. -/
theorem read_scale (V : (c : Dev nD) → (b : Ref sig .tc) → Buf (Elt Ideal) ((c : Thread nD τ).loc b)) (c : Dev nD)
    (t : Fin cfg0.N) (d : Fin 1024) :
    (iblk0 V c 1 t : Vec Ideal S1x1024 .f32) (ix2 (0 : Fin 1) d) = (V c main_v0 : S1x1024.Idx → EReal) (ix2 (0 : Fin 1) d) := by
  obtain ⟨-, -, -, -, -, -, e0, e1, -⟩ := idx_facts t
  unfold iblk0
  rw [View.read_apply]
  show V c main_v0 (((cfg0.win 1).blk t).view.emb (ix2 (0 : Fin 1) d)) = _
  congr 1
  funext a
  apply Fin.ext
  match a with
  | ⟨0, _⟩ => show win0_1.index t (0 : Fin 2) * 1 + 1 * 0 = 0; omega
  | ⟨1, _⟩ => show win0_1.index t (1 : Fin 2) * 1024 + 1 * d.val = d.val; omega

/-- The shift window's block at any point is the whole row. -/
theorem read_shift (V : (c : Dev nD) → (b : Ref sig .tc) → Buf (Elt Ideal) ((c : Thread nD τ).loc b)) (c : Dev nD)
    (t : Fin cfg0.N) (d : Fin 1024) :
    (iblk0 V c 2 t : Vec Ideal S1x1024 .f32) (ix2 (0 : Fin 1) d) = (V c main_v1 : S1x1024.Idx → EReal) (ix2 (0 : Fin 1) d) := by
  obtain ⟨-, -, -, -, -, -, -, -, e0, e1, -⟩ := idx_facts t
  unfold iblk0
  rw [View.read_apply]
  show V c main_v1 (((cfg0.win 2).blk t).view.emb (ix2 (0 : Fin 1) d)) = _
  congr 1
  funext a
  apply Fin.ext
  match a with
  | ⟨0, _⟩ => show win0_2.index t (0 : Fin 2) * 1 + 1 * 0 = 0; omega
  | ⟨1, _⟩ => show win0_2.index t (1 : Fin 2) * 1024 + 1 * d.val = d.val; omega

/-- The weight window's block at any point is the whole matrix. -/
theorem read_weight (V : (c : Dev nD) → (b : Ref sig .tc) → Buf (Elt Ideal) ((c : Thread nD τ).loc b)) (c : Dev nD)
    (t : Fin cfg0.N) (d e : Fin 1024) :
    (iblk0 V c 3 t : Vec Ideal S1024x1024 .bf16) (ix2 d e) = (V c main_v7 : S1024x1024.Idx → EReal) (ix2 d e) := by
  obtain ⟨-, -, -, -, -, -, -, -, -, -, e0, e1, -⟩ := idx_facts t
  unfold iblk0
  rw [View.read_apply]
  show V c main_v7 (((cfg0.win 3).blk t).view.emb (ix2 d e)) = _
  congr 1
  funext a
  apply Fin.ext
  match a with
  | ⟨0, _⟩ => show win0_3.index t (0 : Fin 2) * 1024 + 1 * d.val = d.val; omega
  | ⟨1, _⟩ => show win0_3.index t (1 : Fin 2) * 1024 + 1 * e.val = e.val; omega

/-- The bias window's block at any point is the whole row. -/
theorem read_bias (V : (c : Dev nD) → (b : Ref sig .tc) → Buf (Elt Ideal) ((c : Thread nD τ).loc b)) (c : Dev nD)
    (t : Fin cfg0.N) (e : Fin 1024) :
    (iblk0 V c 4 t : Vec Ideal S1x1024 .f32) (ix2 (0 : Fin 1) e) = (V c main_v3 : S1x1024.Idx → EReal) (ix2 (0 : Fin 1) e) := by
  obtain ⟨-, -, -, -, -, -, -, -, -, -, -, -, e0, e1⟩ := idx_facts t
  unfold iblk0
  rw [View.read_apply]
  show V c main_v3 (((cfg0.win 4).blk t).view.emb (ix2 (0 : Fin 1) e)) = _
  congr 1
  funext a
  apply Fin.ext
  match a with
  | ⟨0, _⟩ => show win0_4.index t (0 : Fin 2) * 1 + 1 * 0 = 0; omega
  | ⟨1, _⟩ => show win0_4.index t (1 : Fin 2) * 1024 + 1 * e.val = e.val; omega

/-- Where the result window's block at point `t` sits in the array: row `r` of the block is row `512 (t % 4) + r` of
    batch entry `t / 4`. -/
theorem emb_result (t : Fin cfg0.N) (u : Fin 1) (r : Fin 512) (e : Fin 1024) (b : Fin 8) (s : Fin 2048)
    (hb : b.val = t.val / 4) (hs : s.val = 512 * (t.val % 4) + r.val) :
    ((cfg0.win 5).blk t).view.emb (ix3 u r e) = (ix3 b s e : S8x2048x1024.Idx) := by
  obtain ⟨-, -, -, e0, e1, e2, -⟩ := idx_facts t
  have hu : u.val = 0 := by omega
  funext a
  apply Fin.ext
  match a with
  | ⟨0, _⟩ => show win0_5.index t (0 : Fin 3) * 1 + 1 * u.val = b.val; omega
  | ⟨1, _⟩ => show win0_5.index t (1 : Fin 3) * 512 + 1 * r.val = s.val; omega
  | ⟨2, _⟩ => show win0_5.index t (2 : Fin 3) * 1024 + 1 * e.val = e.val; omega

/-- Two `[1, 512, 1024]` blocks that agree at every `(0, r, e)` are equal. -/
theorem block_ext (f g : S1x512x1024.Idx → EReal)
    (h : ∀ (r : Fin 512) (e : Fin 1024), f (ix3 (0 : Fin 1) r e) = g (ix3 (0 : Fin 1) r e)) : f = g := by
  funext j
  obtain ⟨u, r, e, rfl⟩ : ∃ (u : Fin 1) (r : Fin 512) (e : Fin 1024), j = ix3 u r e := ⟨j 0, j 1, j 2, eq_ix3 j⟩
  obtain rfl : u = 0 := Subsingleton.elim _ _
  exact h r e

/-- What point `t` writes back is its block of the projected text rows. -/
theorem flushed_eq (V : (c : Dev nD) → (b : Ref sig .tc) → Buf (Elt Ideal) ((c : Thread nD τ).loc b)) (c : Dev nD)
    (TXT : Fin 8 → Fin 2048 → Fin 1024 → EReal) (LW LB : Fin 1024 → EReal) (WT : Fin 1024 → Fin 1024 → EReal) (BT : Fin 1024 → EReal)
    (h0 : ∀ b t d, (V c main_arg1 : S8x2048x1024.Idx → EReal) (ix3 b t d) = TXT b t d)
    (h1 : ∀ d, (V c main_v0 : S1x1024.Idx → EReal) (ix2 (0 : Fin 1) d) = LW d)
    (h2 : ∀ d, (V c main_v1 : S1x1024.Idx → EReal) (ix2 (0 : Fin 1) d) = LB d)
    (h3 : ∀ d e, (V c main_v7 : S1024x1024.Idx → EReal) (ix2 d e) = WT e d)
    (h4 : ∀ e, (V c main_v3 : S1x1024.Idx → EReal) (ix2 (0 : Fin 1) e) = BT e)
    (t : Fin cfg0.N) :
    (dat0 V c).flushed 5 t = ((cfg0.win 5).blk t).view.read (Elt Ideal) (projText TXT LW LB WT BT) := by
  show (cfg0.win 5).cut (grid0.coords t) ((dat0 V c).after 5 t) = _
  rw [after0_5]
  unfold out0_5
  rw [View.canon_unit_zero zero3]
  simp only [View.ld_unit_zero (S := S1x512x1024) zero3, View.ld_unit_zero (S := S1x1024) zero2, View.ld_unit_zero (S := S1024x1024) zero2]
  refine block_ext _ _ fun r e => ?_
  have ht : t.val < 32 := lt_of_lt_of_eq t.isLt (show cfg0.N = 32 from N_0)
  show k0_pay1 (F := Ideal) (iblk0 V c 0 t) (iblk0 V c 1 t) (iblk0 V c 2 t) (iblk0 V c 3 t) (iblk0 V c 4 t) (ix3 (0 : Fin 1) r e)
     = projText TXT LW LB WT BT (((cfg0.win 5).blk t).view.emb (ix3 (0 : Fin 1) r e))
  refine (pay_apply (iblk0 V c 0 t) (iblk0 V c 1 t) (iblk0 V c 2 t) (iblk0 V c 3 t) (iblk0 V c 4 t) r e).trans ?_
  rw [emb_result t 0 r e ⟨t.val / 4, by omega⟩ ⟨512 * (t.val % 4) + r.val, by omega⟩ rfl rfl]
  have e0 : (fun d => (iblk0 V c 0 t : Vec Ideal S1x512x1024 .f32) (ix3 (0 : Fin 1) r d))
      = TXT ⟨t.val / 4, by omega⟩ ⟨512 * (t.val % 4) + r.val, by omega⟩ :=
    funext fun d => (read_text V c t r d _ _ rfl rfl).trans (h0 _ _ _)
  have e1 : (fun d => (iblk0 V c 1 t : Vec Ideal S1x1024 .f32) (ix2 (0 : Fin 1) d)) = LW :=
    funext fun d => (read_scale V c t d).trans (h1 d)
  have e2 : (fun d => (iblk0 V c 2 t : Vec Ideal S1x1024 .f32) (ix2 (0 : Fin 1) d)) = LB :=
    funext fun d => (read_shift V c t d).trans (h2 d)
  have e3 : (fun e d => (iblk0 V c 3 t : Vec Ideal S1024x1024 .bf16) (ix2 d e)) = WT :=
    funext fun e => funext fun d => (read_weight V c t d e).trans (h3 d e)
  have e4 : (fun e => (iblk0 V c 4 t : Vec Ideal S1x1024 .f32) (ix2 (0 : Fin 1) e)) = BT :=
    funext fun e => (read_bias V c t e).trans (h4 e)
  rw [e0, e1, e2, e3, e4]
  rfl

/-- An index of the array is in point `t`'s block iff each coordinate is in the block's range on its axis. -/
theorem mem_blk (t : Fin cfg0.N) (i : S8x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v8).slice (win0_5.rect t)).set ↔ _
  rw [View.set_slice_whole, Rect.mem_set_unit]
  exact Iff.rfl

/-- Every entry of the array is in some point's block: row `s` of batch entry `b` in that of point `4 b + s / 512`. -/
theorem cover (i : S8x2048x1024.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  have hN : cfg0.N = 32 := N_0
  let t : Fin cfg0.N := ⟨4 * (i 0).val + (i 1).val / 512, by rw [hN]; omega⟩
  have htv : t.val = 4 * (i 0).val + (i 1).val / 512 := rfl
  obtain ⟨-, -, -, e0, e1, e2, -⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The first region's result array after its last write-back, from the contents `V` it is entered with: the text
    tower `TXT`, scale `LW` and shift `LB` as rows [1, 1024], the weight matrix held transposed (`V`'s entry `(d, e)` is
    `WT e d`), the bias `BT`. -/
theorem text_proj (V : (c : Dev nD) → (b : Ref sig .tc) → Buf (Elt Ideal) ((c : Thread nD τ).loc b)) (c : Dev nD)
    (TXT : Fin 8 → Fin 2048 → Fin 1024 → EReal) (LW LB : Fin 1024 → EReal) (WT : Fin 1024 → Fin 1024 → EReal) (BT : Fin 1024 → EReal)
    (h0 : ∀ b t d, (V c main_arg1 : S8x2048x1024.Idx → EReal) (ix3 b t d) = TXT b t d)
    (h1 : ∀ d, (V c main_v0 : S1x1024.Idx → EReal) (ix2 (0 : Fin 1) d) = LW d)
    (h2 : ∀ d, (V c main_v1 : S1x1024.Idx → EReal) (ix2 (0 : Fin 1) d) = LB d)
    (h3 : ∀ d e, (V c main_v7 : S1024x1024.Idx → EReal) (ix2 d e) = WT e d)
    (h4 : ∀ e, (V c main_v3 : S1x1024.Idx → EReal) (ix2 (0 : Fin 1) e) = BT e)
    (b : Fin 8) (t : Fin 2048) (e : Fin 1024) :
    ((dat0 V c).arrAt 5 cfg0.N : S8x2048x1024.Idx → EReal) (ix3 b t e) = Cert.Spec.proj (TXT b t) LW LB WT BT e :=
  congrFun ((dat0 V c).arrAt_eq_of_cover 5 (projText TXT LW LB WT BT)
    (fun p _ => flushed_eq V c TXT LW LB WT BT h0 h1 h2 h3 h4 p) cover) (ix3 b t e)

end Cert.KernelIdeal.Region0

end
-- ==== Proof.Region1Pay5.lean ====
/-
  The second kernel's first stage at an index: row `s` of the image tile normalised and projected.
-/
import proofs.«423824_j47811575939396_3_alg».proof.Proof.Gen.KernelIdeal.Skeleton
import proofs.«423824_j47811575939396_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay5

open Idealize.ShloMosaic Idealize.ShloMosaic.TcCoe Idealize.SL.Sem Idealize.ShloMosaic.ValueIdx
open Cert.KernelIdeal Cert.KernelIdeal.Gen

/-! ## The layout operations and the lane sum read at coordinates -/

/-- A lane sum of a [256,1024] tile at row s: the sum over the row. -/
theorem rowSum_apply (v : FVec Ideal S256x1024 .f32) (h : S256x1024.Reduces [1] S256) (hφ : FKind.Formats .f32)
    (hacc : (0x00000000#32 : BitVec FTy.f32.bits) = 0x00000000#32) (s : Fin 256) :
    multiReduction (F := Ideal) .add [1] S256 v 0x00000000#32 h hφ hacc (ix1 s) = ∑ d : Fin 1024, v (ix2 s d) := by
  refine (Ideal.multiReduction_add_single v 0x00000000#32 h hφ hacc (ix1 s)).trans ?_
  refine Finset.sum_congr rfl fun d _ => congrArg v ?_
  funext a
  match a with
  | ⟨0, _⟩ => rfl
  | ⟨1, _⟩ => rfl

/-- A [256] column cast to [256,1] reads, at (s, u), the column at s. -/
theorem castCol_apply {α : Type} (v : S256.Idx → α) (h : S256.ShapeCasts S256x1) (s : Fin 256) (u : Fin 1) :
    shapeCast S256x1 v h (ix2 s u) = v (ix1 s) :=
  shapeCast_apply v h _ _ (by
    have hu : u.val = 0 := by omega
    rw [Shape.rowMajor_val_two, Shape.rowMajor_val_one]
    show s.val = s.val * 1 + u.val
    rw [hu, Nat.mul_one, Nat.add_zero])

/-- A [256,1] column broadcast to [256,1024] reads, at (s, d), the column at (s, 0). -/
theorem bcastCol_apply {α : Type} (v : S256x1.Idx → α) (h : S256x1.Broadcasts S256x1024) (s : Fin 256) (d : Fin 1024) :
    broadcastTo S256x1024 v h (ix2 s d) = v (ix2 s (0 : Fin 1)) := by
  refine broadcastTo_apply v h (ix2 s d) (ix2 s (0 : Fin 1)) fun ax => ?_
  match ax with
  | ⟨0, _⟩ =>
    show s.val = if (256 : Nat) = 1 then 0 else s.val
    rw [if_neg (by decide)]
  | ⟨1, _⟩ =>
    show 0 = if (1 : Nat) = 1 then 0 else d.val
    rw [if_pos rfl]

/-- The tile cast from [1,256,1024] to [256,1024] reads, at (s, d), the block at (0, s, d). -/
theorem castTile_apply {α : Type} (v : S1x256x1024.Idx → α) (h : S1x256x1024.ShapeCasts S256x1024) (s : Fin 256) (d : Fin 1024) :
    shapeCast S256x1024 v h (ix2 s d) = v (ix3 (0 : Fin 1) s d) :=
  shapeCast_1ab_ab_apply v h s d

/-- A [1,1024] row broadcast to [256,1024] reads, at (s, d), the row at (0, d). -/
theorem bcastRow_apply {α : Type} (v : S1x1024.Idx → α) (h : S1x1024.Broadcasts S256x1024) (s : Fin 256) (d : Fin 1024) :
    broadcastTo S256x1024 v h (ix2 s d) = v (ix2 (0 : Fin 1) d) :=
  broadcastTo_1b_ab_apply v h s d

/-- The reciprocal square root is taken entry by entry. -/
theorem rsqrt_apply {s : Shape} {φ : FTy} (a : FVec Ideal s φ) (i : s.Idx) : rsqrt a i = Ideal.rsqrt (a i) := rfl

/-! ## The projection's matrix product read at an index -/

/-- The left operand's row coordinate is the output's row. -/
theorem lhs_dot_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The left operand's column coordinate is the contraction index. -/
theorem lhs_dot_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's row coordinate is the contraction index. -/
theorem rhs_dot_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The right operand's column coordinate is the output's column. -/
theorem rhs_dot_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of a [256,1024] tile with the [1024,1024] matrix, from zero, at (s, e): Σ_k a(s,k) · w(k,e). -/
theorem matmul_at (a : FVec Ideal S256x1024 .bf16) (w : FVec Ideal S1024x1024 .bf16) (s : Fin 256) (e : Fin 1024) :
    matmul dot_S256x1024_S1024x1024_S256x1024_1_0_0_1_n_n none a w (constant (F := Ideal) S256x1024 .f32 0x00000000#32) (ix2 s e)
      = ∑ k : Fin 1024, a (ix2 s k) * w (ix2 k e) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 s e) ((ValueIdx.contrEquiv1 dot_S256x1024_S1024x1024_S256x1024_1_0_0_1_n_n 1024 rfl rfl).symm k) = ix2 s k := funext fun ax => Fin.ext (by
    match ax with
    | ⟨0, _⟩ => exact lhs_dot_0 _ _
    | ⟨1, _⟩ => exact (lhs_dot_1 _ _).trans hk)
  have er : dot_S256x1024_S1024x1024_S256x1024_1_0_0_1_n_n.rhsIdx (ix2 s e) ((ValueIdx.contrEquiv1 dot_S256x1024_S1024x1024_S256x1024_1_0_0_1_n_n 1024 rfl rfl).symm k) = ix2 k e := funext fun ax => Fin.ext (by
    match ax with
    | ⟨0, _⟩ => exact (rhs_dot_0 _ _).trans hk
    | ⟨1, _⟩ => exact rhs_dot_1 _ _)
  rw [el, er]

/-! ## The payload -/

/-- The tile's projection at `(s, e)`: the image block `x0`, scale `x2`, shift `x3`, the weight matrix `x4` held
    transposed (entry `(d, e)` is the weight of input `d` for output `e`), bias `x5`. -/
theorem pay5_at (x0 : Vec Ideal S1x256x1024 .f32) (x2 x3 : Vec Ideal S1x1024 .f32) (x4 : Vec Ideal S1024x1024 .bf16)
    (x5 : Vec Ideal S1x1024 .f32) (s : Fin 256) (e : Fin 1024) :
    k1_pay5 (F := Ideal) x0 x2 x3 x4 x5 (ix2 s e)
      = Cert.Spec.proj (fun d => x0 (ix3 (0 : Fin 1) s d)) (fun d => x2 (ix2 (0 : Fin 1) d)) (fun d => x3 (ix2 (0 : Fin 1) d))
          (fun e d => x4 (ix2 d e)) (fun e => x5 (ix2 (0 : Fin 1) e)) e := by
  unfold k1_pay5
  simp only [addf_apply, mulf_apply, subf_apply, divf_apply, truncf_apply, broadcast_apply, rsqrt_apply, shapeCast_self,
    castTile_apply, castCol_apply, bcastCol_apply, bcastRow_apply, rowSum_apply _ reduces_S256x1024_S256 (.inl rfl) rfl,
    matmul_at, Ideal.ofBits_def]
  unfold Cert.Spec.proj Cert.Spec.lnorm Cert.Spec.variance Cert.Spec.centred Cert.Spec.mean
  rfl

end Cert.KernelIdeal.Pay5

end
-- ==== Proof.Region1Pay.lean ====
/-
  The second kernel's arithmetic read at an index: one tile of 256 image rows against the 2048 projected text rows
  of its batch entry.
-/
import proofs.«423824_j47811575939396_3_alg».proof.Proof.Gen.KernelIdeal.Skeleton
import proofs.«423824_j47811575939396_3_alg».proof.Proof.Spec
import proofs.«423824_j47811575939396_3_alg».proof.Proof.Region1Pay5
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.TcCoe Idealize.SL.Sem Idealize.ShloMosaic.ValueIdx
open Cert.KernelIdeal Cert.KernelIdeal.Gen

/-! ## Layout operations at explicit coordinates -/

section Layout
variable {α : Type}

/-- A column `[a]` cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane reductions of a matrix at a row -/

section Reduce
variable {φ : FTy}

/-- The sum over the lanes of row `r` of an `[a, b]` matrix. -/
theorem rowSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun c => Fin.ext ?_)
  match c with
  | ⟨0, _⟩ => rfl
  | ⟨1, _⟩ => rfl

/-- The maximum over the lanes of row `r` of an `[a, b]` matrix, folded from the accumulator's value. -/
theorem rowMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction (F := Ideal) .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine Finset.fold_congr fun k _ => congrArg src (funext fun c => Fin.ext ?_)
  match c with
  | ⟨0, _⟩ => rfl
  | ⟨1, _⟩ => rfl

end Reduce

/-! ## The four products at an index -/

section Products
variable {φ₁ φ₂ : FTy}

/-! ### Rows by columns, `[256, 1024] × [1024, 1024]` -/

theorem lhsP_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsP_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsP_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsP_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry `(s, e)` of the projection product: the sum over `d` of row `s` of the left operand against column `e` of the right. -/
theorem mmP_apply (lhs : FVec Ideal S256x1024 φ₁) (rhs : FVec Ideal S1024x1024 φ₂) (s : Fin 256) (e : Fin 1024) :
    matmul dot_S256x1024_S1024x1024_S256x1024_1_0_0_1_n_n none lhs rhs (constant (F := Ideal) S256x1024 .f32 0x00000000#32) (ix2 s e)
      = ∑ d : Fin 1024, lhs (ix2 s d) * rhs (ix2 d e) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 s e) ((contrEquiv1 dot_S256x1024_S1024x1024_S256x1024_1_0_0_1_n_n 1024 rfl rfl).symm k) = ix2 s k := funext fun a => Fin.ext (by
    match a with
    | ⟨0, _⟩ => exact lhsP_0 _ _
    | ⟨1, _⟩ => exact (lhsP_1 _ _).trans hk)
  have er : dot_S256x1024_S1024x1024_S256x1024_1_0_0_1_n_n.rhsIdx (ix2 s e) ((contrEquiv1 dot_S256x1024_S1024x1024_S256x1024_1_0_0_1_n_n 1024 rfl rfl).symm k) = ix2 k e := funext fun a => Fin.ext (by
    match a with
    | ⟨0, _⟩ => exact (rhsP_0 _ _).trans hk
    | ⟨1, _⟩ => exact rhsP_1 _ _)
  rw [el, er]

/-! ### Rows by rows, `[256, 1024] × [2048, 1024]`: both operands contract their second axis -/

theorem lhsS_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhsS_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem rhsS_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhsS_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- Entry `(s, t)` of the score product: the inner product of row `s` of the left operand with row `t` of the right. -/
theorem mmS_apply (lhs : FVec Ideal S256x1024 φ₁) (rhs : FVec Ideal S2048x1024 φ₂) (s : Fin 256) (t : Fin 2048) :
    matmul dot_S256x1024_S2048x1024_S256x2048_1_1_0_0_n_n none lhs rhs (constant (F := Ideal) S256x2048 .f32 0x00000000#32) (ix2 s t)
      = ∑ e : Fin 1024, lhs (ix2 s e) * rhs (ix2 t e) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 s t) ((contrEquiv1 dot_S256x1024_S2048x1024_S256x2048_1_1_0_0_n_n 1024 rfl rfl).symm k) = ix2 s k := funext fun a => Fin.ext (by
    match a with
    | ⟨0, _⟩ => exact lhsS_0 _ _
    | ⟨1, _⟩ => exact (lhsS_1 _ _).trans hk)
  have er : dot_S256x1024_S2048x1024_S256x2048_1_1_0_0_n_n.rhsIdx (ix2 s t) ((contrEquiv1 dot_S256x1024_S2048x1024_S256x2048_1_1_0_0_n_n 1024 rfl rfl).symm k) = ix2 t k := funext fun a => Fin.ext (by
    match a with
    | ⟨0, _⟩ => exact rhsS_0 _ _
    | ⟨1, _⟩ => exact (rhsS_1 _ _).trans hk)
  rw [el, er]

/-! ### Rows by columns, `[256, 2048] × [2048, 1024]` -/

theorem lhsV_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhsV_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhsV_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhsV_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Entry `(s, e)` of the weighted sum of text rows: the sum over `t` of the weight `(s, t)` times text row `t` at `e`. -/
theorem mmV_apply (lhs : FVec Ideal S256x2048 φ₁) (rhs : FVec Ideal S2048x1024 φ₂) (s : Fin 256) (e : Fin 1024) :
    matmul dot_S256x2048_S2048x1024_S256x1024_1_0_0_1_n_n none lhs rhs (constant (F := Ideal) S256x1024 .f32 0x00000000#32) (ix2 s e)
      = ∑ t : Fin 2048, lhs (ix2 s t) * rhs (ix2 t e) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 s e) ((contrEquiv1 dot_S256x2048_S2048x1024_S256x1024_1_0_0_1_n_n 2048 rfl rfl).symm k) = ix2 s k := funext fun a => Fin.ext (by
    match a with
    | ⟨0, _⟩ => exact lhsV_0 _ _
    | ⟨1, _⟩ => exact (lhsV_1 _ _).trans hk)
  have er : dot_S256x2048_S2048x1024_S256x1024_1_0_0_1_n_n.rhsIdx (ix2 s e) ((contrEquiv1 dot_S256x2048_S2048x1024_S256x1024_1_0_0_1_n_n 2048 rfl rfl).symm k) = ix2 k e := funext fun a => Fin.ext (by
    match a with
    | ⟨0, _⟩ => exact (rhsV_0 _ _).trans hk
    | ⟨1, _⟩ => exact rhsV_1 _ _)
  rw [el, er]

/-! ### Columns by columns, `[256, 512] × [256, 1024]`: both operands contract their first axis -/

theorem lhsT_0 (i : S512x1024.Idx) (q : dot_S256x512_S256x1024_S512x1024_0_0_1_1_n_n.contr.Idx) :
    (dot_S256x512_S256x1024_S512x1024_0_0_1_1_n_n.lhsIdx i q 0).val = (q ⟨0, by decide⟩).val :=
  dot_S256x512_S256x1024_S512x1024_0_0_1_1_n_n.lhsIdx_val_of_single rfl i q
theorem lhsT_1 (i : S512x1024.Idx) (q : dot_S256x512_S256x1024_S512x1024_0_0_1_1_n_n.contr.Idx) :
    (dot_S256x512_S256x1024_S512x1024_0_0_1_1_n_n.lhsIdx i q 1).val = (i 0).val := by
  unfold DotDims.lhsIdx
  rw [dif_neg (show ¬(1 : Fin S256x512.rank) ∈ dot_S256x512_S256x1024_S512x1024_0_0_1_1_n_n.lhsBatch by decide), dif_pos (show (1 : Fin S256x512.rank) ∈ dot_S256x512_S256x1024_S512x1024_0_0_1_1_n_n.lhsNonContracting by decide)]
  rfl
theorem rhsT_0 (i : S512x1024.Idx) (q : dot_S256x512_S256x1024_S512x1024_0_0_1_1_n_n.contr.Idx) :
    (dot_S256x512_S256x1024_S512x1024_0_0_1_1_n_n.rhsIdx i q 0).val = (q ⟨0, by decide⟩).val :=
  dot_S256x512_S256x1024_S512x1024_0_0_1_1_n_n.rhsIdx_val_of_single rfl i q
theorem rhsT_1 (i : S512x1024.Idx) (q : dot_S256x512_S256x1024_S512x1024_0_0_1_1_n_n.contr.Idx) :
    (dot_S256x512_S256x1024_S512x1024_0_0_1_1_n_n.rhsIdx i q 1).val = (i 1).val := by
  unfold DotDims.rhsIdx
  rw [dif_neg (show ¬(1 : Fin S256x1024.rank) ∈ dot_S256x512_S256x1024_S512x1024_0_0_1_1_n_n.rhsBatch by decide), dif_pos (show (1 : Fin S256x1024.rank) ∈ dot_S256x512_S256x1024_S512x1024_0_0_1_1_n_n.rhsNonContracting by decide)]
  rfl

/-- Entry `(r, e)` of the text-side product: the sum over the tile's rows `s` of the left operand at `(s, r)` times the right at `(s, e)`. -/
theorem mmT_apply (lhs : FVec Ideal S256x512 φ₁) (rhs : FVec Ideal S256x1024 φ₂) (r : Fin 512) (e : Fin 1024) :
    matmul dot_S256x512_S256x1024_S512x1024_0_0_1_1_n_n none lhs rhs (constant (F := Ideal) S512x1024 .f32 0x00000000#32) (ix2 r e)
      = ∑ s : Fin 256, lhs (ix2 s r) * rhs (ix2 s e) := by
  simp only [matmul]
  rw [Ideal.matmul_constant_zero_apply, ← Equiv.sum_comp (contrEquiv1 dot_S256x512_S256x1024_S512x1024_0_0_1_1_n_n 256 rfl rfl).symm]
  refine Finset.sum_congr rfl fun k _ => ?_
  have hk := contrEquiv1_symm_val dot_S256x512_S256x1024_S512x1024_0_0_1_1_n_n 256 rfl rfl k
  have el : dot_S256x512_S256x1024_S512x1024_0_0_1_1_n_n.lhsIdx (ix2 r e) ((contrEquiv1 dot_S256x512_S256x1024_S512x1024_0_0_1_1_n_n 256 rfl rfl).symm k) = ix2 k r := funext fun a => Fin.ext (by
    match a with
    | ⟨0, _⟩ => exact (lhsT_0 _ _).trans hk
    | ⟨1, _⟩ => exact lhsT_1 _ _)
  have er : dot_S256x512_S256x1024_S512x1024_0_0_1_1_n_n.rhsIdx (ix2 r e) ((contrEquiv1 dot_S256x512_S256x1024_S512x1024_0_0_1_1_n_n 256 rfl rfl).symm k) = ix2 k e := funext fun a => Fin.ext (by
    match a with
    | ⟨0, _⟩ => exact (rhsT_0 _ _).trans hk
    | ⟨1, _⟩ => exact rhsT_1 _ _)
  rw [el, er]

end Products

/-! ## Pointwise maps at an index -/

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

section
variable (x0 : Vec Ideal S1x256x1024 .f32) (x1 : Vec Ideal S1x2048x1024 .bf16) (x2 x3 : Vec Ideal S1x1024 .f32)
  (x4 : Vec Ideal S1024x1024 .bf16) (x5 : Vec Ideal S1x1024 .f32)

/-- Row `s` of the tile, normalised and projected: the image block `x0`, scale `x2`, shift `x3`, the weight matrix
    `x4` held transposed (entry `(d, e)` is the weight of input `d` for output `e`), bias `x5`. -/
def P (s : Fin 256) (e : Fin 1024) : EReal :=
  Cert.Spec.proj (fun d => x0 (ix3 (0 : Fin 1) s d)) (fun d => x2 (ix2 (0 : Fin 1) d)) (fun d => x3 (ix2 (0 : Fin 1) d))
    (fun e d => x4 (ix2 d e)) (fun e => x5 (ix2 (0 : Fin 1) e)) e

/-- The projected text rows of the batch entry, as the block `x1` holds them. -/
def Tm (t : Fin 2048) (e : Fin 1024) : EReal := x1 (ix3 (0 : Fin 1) t e)

/-- The projection of the tile at `(s, e)`. -/
theorem pay5_apply (s : Fin 256) (e : Fin 1024) :
    k1_pay5 (F := Ideal) x0 x2 x3 x4 x5 (ix2 s e) = P x0 x2 x3 x4 x5 s e := by
  unfold P
  exact Pay5.pay5_at x0 x2 x3 x4 x5 s e

variable (v36 : FVec Ideal S256x1024 .f32)

/-- The projected text rows, seen as a matrix. -/
theorem pay6_apply (t : Fin 2048) (e : Fin 1024) : k1_pay6 (F := Ideal) x1 (ix2 t e) = Tm x1 t e := by
  unfold k1_pay6
  exact shapeCast_1ab_ab_apply _ _ t e

/-- The score of text row `t` for tile row `s`: the row scaled first, then the inner product. -/
theorem score_apply (s : Fin 256) (t : Fin 2048) :
    matmul dot_S256x1024_S2048x1024_S256x2048_1_1_0_0_n_n none
      (truncf .bf16 (mulf v36 (broadcast S256x1024 (Scalar.ofBits (F := Ideal) .f32 0x3D000000#32))) bitsLt_bf16_f32)
      (k1_pay6 (F := Ideal) x1) (constant (F := Ideal) S256x2048 .f32 0x00000000#32) (ix2 s t)
      = Cert.Spec.scoreK (fun e => v36 (ix2 s e)) (Tm x1) t := by
  rw [mmS_apply]
  unfold Cert.Spec.scoreK
  refine Finset.sum_congr rfl fun e _ => ?_
  rw [pay6_apply, truncf_apply, mulf_apply, broadcast_apply]
  rfl

/-- The unnormalised weight of text row `t` for tile row `s`. -/
theorem pay7_apply (s : Fin 256) (t : Fin 2048) :
    k1_pay7 (F := Ideal) v36 (Scalar.ofBits .f32 0x3D000000#32) x1 (ix2 s t)
      = Cert.Spec.probK (fun e => v36 (ix2 s e)) (Tm x1) t := by
  unfold k1_pay7
  simp only [exp_apply, subf_apply]
  rw [score_apply, broadcastTo_a1_ab_apply, shapeCast_a_a1_apply]
  unfold Cert.Spec.probK Cert.Spec.rowMaxK
  refine congrArg (fun m => Ideal.exp (_ - m)) ?_
  refine (rowMax_apply _ _ _ _ _ s).trans ?_
  refine Finset.fold_congr fun k _ => ?_
  exact score_apply x1 v36 s k

/-- The reciprocal of the weights' sum for tile row `s`. -/
theorem pay8_apply (s : Fin 256) :
    k1_pay8 (F := Ideal) v36 (Scalar.ofBits .f32 0x3D000000#32) x1 (ix2 s (0 : Fin 1))
      = Cert.Spec.recipK (fun e => v36 (ix2 s e)) (Tm x1) := by
  unfold k1_pay8
  simp only [divf_apply, broadcast_apply]
  rw [shapeCast_a_a1_apply]
  unfold Cert.Spec.recipK Cert.Spec.denomK
  refine congrArg (Ideal.div _) ?_
  refine (rowSum_apply _ _ _ _ _ s).trans ?_
  refine Finset.sum_congr rfl fun t _ => ?_
  exact pay7_apply x1 v36 s t

/-- The weights in the narrower format: the same extended reals. -/
theorem pay9_apply (s : Fin 256) (t : Fin 2048) :
    k1_pay9 (F := Ideal) v36 (Scalar.ofBits .f32 0x3D000000#32) x1 (ix2 s t)
      = Cert.Spec.probK (fun e => v36 (ix2 s e)) (Tm x1) t := by
  unfold k1_pay9
  rw [truncf_apply]
  exact pay7_apply x1 v36 s t

/-- The image-side block at `(s, e)`. -/
theorem pay10_apply (s : Fin 256) (e : Fin 1024) :
    k1_pay10 (F := Ideal) v36 (Scalar.ofBits .f32 0x3D000000#32) x1 (ix3 (0 : Fin 1) s e)
      = Cert.Spec.imgRowK (fun e => v36 (ix2 s e)) (Tm x1) e := by
  unfold k1_pay10
  rw [shapeCast_ab_1ab_apply, mulf_apply, mmV_apply, broadcastTo_a1_ab_apply, pay8_apply]
  unfold Cert.Spec.imgRowK
  refine congrArg (· * _) ?_
  refine Finset.sum_congr rfl fun t _ => ?_
  rw [pay9_apply, pay6_apply]

/-- The tile row `s` with the reciprocal folded in, at column `e`. -/
theorem pay11_apply (s : Fin 256) (e : Fin 1024) :
    k1_pay11 (F := Ideal) v36 (Scalar.ofBits .f32 0x3D000000#32) x1 (ix2 s e)
      = v36 (ix2 s e) * Cert.Spec.recipK (fun e => v36 (ix2 s e)) (Tm x1) := by
  unfold k1_pay11
  rw [truncf_apply, mulf_apply, broadcastTo_a1_ab_apply, pay8_apply]

/-- The tile's addend to the text-side block at text row `t`, column `e`: the sum over its 256 rows. -/
def tileSum (t : Fin 2048) (e : Fin 1024) : EReal :=
  ∑ s : Fin 256, Cert.Spec.weightK (fun e => v36 (ix2 s e)) (Tm x1) t e

/-- The product of a 512-column cut of the weights, starting at column `o`, with the folded tile: the tile's addend at
    text row `o + r`. -/
theorem cut_apply (o : ℕ) (h : S256x2048.Slices ![0, o] S256x512) (r : Fin 512) (e : Fin 1024) (t : Fin 2048) (ht : t.val = o + r.val) :
    matmul dot_S256x512_S256x1024_S512x1024_0_0_1_1_n_n none
      (extractStridedSlice S256x512 ![0, o] (k1_pay9 (F := Ideal) v36 (Scalar.ofBits .f32 0x3D000000#32) x1) h)
      (k1_pay11 (F := Ideal) v36 (Scalar.ofBits .f32 0x3D000000#32) x1) (constant (F := Ideal) S512x1024 .f32 0x00000000#32) (ix2 r e)
      = tileSum x1 v36 t e := by
  rw [mmT_apply]
  unfold tileSum Cert.Spec.weightK
  refine Finset.sum_congr rfl fun s _ => ?_
  rw [slice2_axis1_apply o _ h s r t ht, pay9_apply, pay11_apply]

/-- Text rows 0 … 511: what was there plus the tile's addend. -/
theorem pay12_apply (v64 : Vec Ideal S1x512x1024 .f32) (r : Fin 512) (e : Fin 1024) :
    k1_pay12 (F := Ideal) v36 (Scalar.ofBits .f32 0x3D000000#32) x1 v64 (ix3 (0 : Fin 1) r e)
      = v64 (ix3 (0 : Fin 1) r e) + tileSum x1 v36 ⟨r.val, by omega⟩ e := by
  unfold k1_pay12
  rw [shapeCast_ab_1ab_apply, addf_apply, shapeCast_1ab_ab_apply, cut_apply x1 v36 0 _ r e ⟨r.val, by omega⟩ (Nat.zero_add _).symm]

/-- Text rows 512 … 1023. -/
theorem pay1_apply (v72 : Vec Ideal S1x512x1024 .f32) (r : Fin 512) (e : Fin 1024) :
    k1_pay1 (F := Ideal) (k1_pay13 v36 (Scalar.ofBits .f32 0x3D000000#32) x1) v72 (ix3 (0 : Fin 1) r e)
      = v72 (ix3 (0 : Fin 1) r e) + tileSum x1 v36 ⟨512 + r.val, by omega⟩ e := by
  unfold k1_pay1 k1_pay13
  rw [shapeCast_ab_1ab_apply, addf_apply, shapeCast_1ab_ab_apply, cut_apply x1 v36 512 _ r e ⟨512 + r.val, by omega⟩ rfl]

/-- Text rows 1024 … 1535. -/
theorem pay2_apply (v80 : Vec Ideal S1x512x1024 .f32) (r : Fin 512) (e : Fin 1024) :
    k1_pay2 (F := Ideal) (k1_pay9 v36 (Scalar.ofBits .f32 0x3D000000#32) x1) (k1_pay11 v36 (Scalar.ofBits .f32 0x3D000000#32) x1) v80 (ix3 (0 : Fin 1) r e)
      = v80 (ix3 (0 : Fin 1) r e) + tileSum x1 v36 ⟨1024 + r.val, by omega⟩ e := by
  unfold k1_pay2
  rw [shapeCast_ab_1ab_apply, addf_apply, shapeCast_1ab_ab_apply, cut_apply x1 v36 1024 _ r e ⟨1024 + r.val, by omega⟩ rfl]

/-- Text rows 1536 … 2047. -/
theorem pay3_apply (v88 : Vec Ideal S1x512x1024 .f32) (r : Fin 512) (e : Fin 1024) :
    k1_pay3 (F := Ideal) (k1_pay9 v36 (Scalar.ofBits .f32 0x3D000000#32) x1) (k1_pay11 v36 (Scalar.ofBits .f32 0x3D000000#32) x1) v88 (ix3 (0 : Fin 1) r e)
      = v88 (ix3 (0 : Fin 1) r e) + tileSum x1 v36 ⟨1536 + r.val, by omega⟩ e := by
  unfold k1_pay3
  rw [shapeCast_ab_1ab_apply, addf_apply, shapeCast_1ab_ab_apply, cut_apply x1 v36 1536 _ r e ⟨1536 + r.val, by omega⟩ rfl]

end

/-- The reset block is zero everywhere. -/
theorem pay4_apply (i : S1x2048x1024.Idx) : k1_pay4 (F := Ideal) i = 0 := by
  unfold k1_pay4
  exact Ideal.ofBits_zero_f32

end Cert.KernelIdeal.Pay

end
-- ==== Proof.Region1Pieces.lean ====
/-
  What one grid point of the second kernel leaves in its two output blocks, read at an index. At the first tile of
  a batch entry the text-side block is reset to zero and the tile's sums added; at a later tile they are added to
  what the tile before left. The image-side block is the tile's normalised weighted sums at every point.
-/
import proofs.«423824_j47811575939396_3_alg».proof.Proof.Gen.KernelIdeal.Frame
import proofs.«423824_j47811575939396_3_alg».proof.Proof.Region1Pay

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen
open Idealize.ShloMosaic.Tactic

/-- Stores made LAST that are each a block of one function `G` decide the contents wherever they cover, whatever
    was stored before them (`L'`: here the reset of the whole block). -/
theorem canon_append_of_pieces {Val : EltTy → Type} [∀ e, Nonempty (Val e)] {S : Shape} {e : EltTy} (G : S.Idx → Val e) :
    ∀ (L L' : List (View.Piece Val S e)) (_ : ∀ p ∈ L, ∀ x : p.1.shape.Idx, p.2 x = G (p.1.emb x)) (y : S.Idx)
      (_ : ∃ p ∈ L, y ∈ p.1.set), View.canon (L ++ L') y = G y
  | [], _, _, _, hy => by obtain ⟨p, hp, _⟩ := hy; simp at hp
  | p :: L, L', hL, y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_append_of_pieces G L L' (fun q hq => hL q (by simp [hq])) y ?_
      obtain ⟨q, hq, hyq⟩ := hy
      rcases List.mem_cons.mp hq with rfl | hq'
      · exact absurd hyq hm
      · exact ⟨q, hq', hyq⟩

theorem hz3 : (![0, 0, 0] : Fin 3 → ℕ) = fun _ => 0 := by
  funext a; match a with | ⟨0, _⟩ => rfl | ⟨1, _⟩ => rfl | ⟨2, _⟩ => rfl
theorem hz2 : (![0, 0] : Fin 2 → ℕ) = fun _ => 0 := by
  funext a; match a with | ⟨0, _⟩ => rfl | ⟨1, _⟩ => rfl

variable (c : Dev nD) (i : grid1.Coords) (arg2 : Memref sig .tc .vmem S1x256x1024 .f32) (harg2 : arg2.IsWhole) (arg3 : Memref sig .tc .vmem S1x2048x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S1x2048x1024 .f32) (harg9 : arg9.IsWhole)
  (x0 : Vec Ideal S1x256x1024 .f32) (x1 : Vec Ideal S1x2048x1024 .bf16) (x2 x3 : Vec Ideal S1x1024 .f32)
  (x4 : Vec Ideal S1024x1024 .bf16) (x5 : Vec Ideal S1x1024 .f32)

/-- The tile's projected rows are what the first stage computes. -/
theorem pay5_row (s : Fin 256) : (fun e => k1_pay5 (F := Ideal) x0 x2 x3 x4 x5 (ix2 s e)) = Pay.P x0 x2 x3 x4 x5 s :=
  funext fun e => Pay.pay5_apply x0 x2 x3 x4 x5 s e

/-- The image-side block from the tile's blocks. -/
theorem img_block (s : Fin 256) (e : Fin 1024) :
    k1_pay10 (F := Ideal) (k1_pay5 x0 x2 x3 x4 x5) (FloatOps.ofBits .f32 0x3D000000#32) x1 (ix3 (0 : Fin 1) s e)
      = Cert.Spec.imgRowK (Pay.P x0 x2 x3 x4 x5 s) (Pay.Tm x1) e :=
  (Pay.pay10_apply x1 (k1_pay5 x0 x2 x3 x4 x5) s e).trans (by rw [pay5_row])

/-- The image-side block at a first tile. -/
theorem outA6_apply (hc0 : cond1_0 i) (s : Fin 256) (e : Fin 1024) :
    out1_A_6 (F := Ideal) c i arg2 harg2 arg3 harg3 arg4 harg4 arg5 harg5 arg6 harg6 arg7 harg7 arg8 harg8 arg9 harg9 hc0 x0 x1 x2 x3 x4 x5 (ix3 (0 : Fin 1) s e)
      = Cert.Spec.imgRowK (Pay.P x0 x2 x3 x4 x5 s) (Pay.Tm x1) e := by
  unfold out1_A_6
  rw [View.read_writes_eq_canon _ _ _ (cover1_A_6 c i arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x256x1024) hz3, View.ld_unit_zero (S := S1x2048x1024) hz3, View.ld_unit_zero (S := S1x1024) hz2, View.ld_unit_zero (S := S1024x1024) hz2]
  exact img_block x0 x1 x2 x3 x4 x5 s e

/-- The image-side block at a later tile. -/
theorem outB6_apply (hc0 : ¬cond1_0 i) (xo7 : Vec Ideal S1x2048x1024 .f32) (s : Fin 256) (e : Fin 1024) :
    out1_B_6 (F := Ideal) c i arg2 harg2 arg3 harg3 arg4 harg4 arg5 harg5 arg6 harg6 arg7 harg7 arg8 harg8 arg9 harg9 hc0 x0 x1 x2 x3 x4 x5 xo7 (ix3 (0 : Fin 1) s e)
      = Cert.Spec.imgRowK (Pay.P x0 x2 x3 x4 x5 s) (Pay.Tm x1) e := by
  unfold out1_B_6
  rw [View.read_writes_eq_canon _ _ _ (cover1_B_6 c i arg2 harg2 arg3 harg3 arg4 harg4 arg5 harg5 arg6 harg6 arg7 harg7 arg8 harg8 arg9 harg9 hc0 x0 x1 x2 x3 x4 x5 xo7)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg9.read_unread,
    View.ld_unit_zero (S := S1x256x1024) hz3, View.ld_unit_zero (S := S1x2048x1024) hz3, View.ld_unit_zero (S := S1x1024) hz2, View.ld_unit_zero (S := S1024x1024) hz2]
  exact img_block x0 x1 x2 x3 x4 x5 s e

/-! ## The text-side block: four stores of 512 rows each -/

/-- Rows 512·k … 512·k + 511 of the block, k = 0 … 3, and the whole block. -/
abbrev R0 : Rect S1x2048x1024 := Rect.unit (s := S1x2048x1024) ![0, 0, 0] S1x512x1024.size inb_S1x2048x1024_S1x512x1024_0_0_0
abbrev R1 : Rect S1x2048x1024 := Rect.unit (s := S1x2048x1024) ![0, 512, 0] S1x512x1024.size inb_S1x2048x1024_S1x512x1024_0_512_0
abbrev R2 : Rect S1x2048x1024 := Rect.unit (s := S1x2048x1024) ![0, 1024, 0] S1x512x1024.size inb_S1x2048x1024_S1x512x1024_0_1024_0
abbrev R3 : Rect S1x2048x1024 := Rect.unit (s := S1x2048x1024) ![0, 1536, 0] S1x512x1024.size inb_S1x2048x1024_S1x512x1024_0_1536_0
abbrev RW : Rect S1x2048x1024 := Rect.unit (s := S1x2048x1024) ![0, 0, 0] S1x2048x1024.size inb_S1x2048x1024_S1x2048x1024_0_0_0

/-- An index of a 512-row store is (0, r, e). -/
theorem chunk_ix (x : S1x512x1024.Idx) : x = ix3 (0 : Fin 1) (⟨(x 1).val, (x 1).isLt⟩ : Fin 512) (⟨(x 2).val, (x 2).isLt⟩ : Fin 1024) := by
  funext a
  match a with
  | ⟨0, h⟩ => exact Fin.ext (show (x ⟨0, h⟩).val = 0 from by have hlt : (x ⟨0, h⟩).val < 1 := (x ⟨0, h⟩).isLt; omega)
  | ⟨1, _⟩ => rfl
  | ⟨2, _⟩ => rfl

/-- and an index of the block is (0, t, e). -/
theorem block_ix (y : S1x2048x1024.Idx) : y = ix3 (0 : Fin 1) (⟨(y 1).val, (y 1).isLt⟩ : Fin 2048) (⟨(y 2).val, (y 2).isLt⟩ : Fin 1024) := by
  funext a
  match a with
  | ⟨0, h⟩ => exact Fin.ext (show (y ⟨0, h⟩).val = 0 from by have hlt : (y ⟨0, h⟩).val < 1 := (y ⟨0, h⟩).isLt; omega)
  | ⟨1, _⟩ => rfl
  | ⟨2, _⟩ => rfl

/-- Row `t` of the block, in rows 0 … 511, is row `t.val` of store 0. -/
theorem ix_R0 (t : Fin 2048) (e : Fin 1024) (h : 0 ≤ t.val ∧ t.val < 0 + 512) :
    ix3 (0 : Fin 1) t e = R0.emb (ix3 (0 : Fin 1) (⟨t.val, by omega⟩ : Fin 512) e) := by
  funext a
  match a with
  | ⟨0, _⟩ => exact Fin.ext (show 0 = 0 + 1 * 0 from rfl)
  | ⟨1, _⟩ => exact Fin.ext (show t.val = 0 + 1 * (t.val) from by omega)
  | ⟨2, _⟩ => exact Fin.ext (show e.val = 0 + 1 * e.val from by omega)

/-- and outside those rows it is not in store 0. -/
theorem not_mem_R0 (t : Fin 2048) (e : Fin 1024) (h : ¬(0 ≤ t.val ∧ t.val < 0 + 512)) : ix3 (0 : Fin 1) t e ∉ R0.set := fun hm =>
  h ((Rect.mem_set_unit.mp hm) 1)

/-- Row `r` of store 0 is row `r.val` of the block. -/
theorem emb_R0 (r : Fin 512) (e : Fin 1024) : R0.emb (ix3 (0 : Fin 1) r e) = ix3 (0 : Fin 1) (⟨r.val, by omega⟩ : Fin 2048) e := by
  funext a
  match a with
  | ⟨0, _⟩ => exact Fin.ext (show 0 + 1 * 0 = 0 from rfl)
  | ⟨1, _⟩ => exact Fin.ext (show 0 + 1 * r.val = r.val from by omega)
  | ⟨2, _⟩ => exact Fin.ext (show 0 + 1 * e.val = e.val from by omega)

/-- Inside its rows the last store decides, -/
theorem canon_hit0 (G : S1x2048x1024.Idx → EReal) (w : R0.shape.Idx → EReal) (L : List (View.Piece (Elt Ideal) S1x2048x1024 .f32))
    (hw : ∀ x, w x = G (R0.emb x)) (t : Fin 2048) (e : Fin 1024) (h : 0 ≤ t.val ∧ t.val < 0 + 512) :
    View.canon ((⟨R0, w⟩ : View.Piece (Elt Ideal) S1x2048x1024 .f32) :: L) (ix3 (0 : Fin 1) t e) = G (ix3 (0 : Fin 1) t e) := by
  obtain ⟨x, hx⟩ : ∃ x : R0.shape.Idx, ix3 (0 : Fin 1) t e = R0.emb x := ⟨_, ix_R0 t e h⟩
  rw [hx, View.canon_cons_emb]
  exact hw x

/-- and outside them the earlier ones do. -/
theorem canon_miss0 (w : R0.shape.Idx → EReal) (L : List (View.Piece (Elt Ideal) S1x2048x1024 .f32))
    (t : Fin 2048) (e : Fin 1024) (h : ¬(0 ≤ t.val ∧ t.val < 0 + 512)) :
    View.canon ((⟨R0, w⟩ : View.Piece (Elt Ideal) S1x2048x1024 .f32) :: L) (ix3 (0 : Fin 1) t e) = View.canon L (ix3 (0 : Fin 1) t e) :=
  View.canon_cons_of_not_mem (⟨R0, w⟩ : View.Piece (Elt Ideal) S1x2048x1024 .f32) L (not_mem_R0 t e h)

/-- Row `t` of the block, in rows 512 … 1023, is row `t.val - 512` of store 1. -/
theorem ix_R1 (t : Fin 2048) (e : Fin 1024) (h : 512 ≤ t.val ∧ t.val < 512 + 512) :
    ix3 (0 : Fin 1) t e = R1.emb (ix3 (0 : Fin 1) (⟨t.val - 512, by omega⟩ : Fin 512) e) := by
  funext a
  match a with
  | ⟨0, _⟩ => exact Fin.ext (show 0 = 0 + 1 * 0 from rfl)
  | ⟨1, _⟩ => exact Fin.ext (show t.val = 512 + 1 * (t.val - 512) from by omega)
  | ⟨2, _⟩ => exact Fin.ext (show e.val = 0 + 1 * e.val from by omega)

/-- and outside those rows it is not in store 1. -/
theorem not_mem_R1 (t : Fin 2048) (e : Fin 1024) (h : ¬(512 ≤ t.val ∧ t.val < 512 + 512)) : ix3 (0 : Fin 1) t e ∉ R1.set := fun hm =>
  h ((Rect.mem_set_unit.mp hm) 1)

/-- Row `r` of store 1 is row `512 + r.val` of the block. -/
theorem emb_R1 (r : Fin 512) (e : Fin 1024) : R1.emb (ix3 (0 : Fin 1) r e) = ix3 (0 : Fin 1) (⟨512 + r.val, by omega⟩ : Fin 2048) e := by
  funext a
  match a with
  | ⟨0, _⟩ => exact Fin.ext (show 0 + 1 * 0 = 0 from rfl)
  | ⟨1, _⟩ => exact Fin.ext (show 512 + 1 * r.val = 512 + r.val from by omega)
  | ⟨2, _⟩ => exact Fin.ext (show 0 + 1 * e.val = e.val from by omega)

/-- Inside its rows the last store decides, -/
theorem canon_hit1 (G : S1x2048x1024.Idx → EReal) (w : R1.shape.Idx → EReal) (L : List (View.Piece (Elt Ideal) S1x2048x1024 .f32))
    (hw : ∀ x, w x = G (R1.emb x)) (t : Fin 2048) (e : Fin 1024) (h : 512 ≤ t.val ∧ t.val < 512 + 512) :
    View.canon ((⟨R1, w⟩ : View.Piece (Elt Ideal) S1x2048x1024 .f32) :: L) (ix3 (0 : Fin 1) t e) = G (ix3 (0 : Fin 1) t e) := by
  obtain ⟨x, hx⟩ : ∃ x : R1.shape.Idx, ix3 (0 : Fin 1) t e = R1.emb x := ⟨_, ix_R1 t e h⟩
  rw [hx, View.canon_cons_emb]
  exact hw x

/-- and outside them the earlier ones do. -/
theorem canon_miss1 (w : R1.shape.Idx → EReal) (L : List (View.Piece (Elt Ideal) S1x2048x1024 .f32))
    (t : Fin 2048) (e : Fin 1024) (h : ¬(512 ≤ t.val ∧ t.val < 512 + 512)) :
    View.canon ((⟨R1, w⟩ : View.Piece (Elt Ideal) S1x2048x1024 .f32) :: L) (ix3 (0 : Fin 1) t e) = View.canon L (ix3 (0 : Fin 1) t e) :=
  View.canon_cons_of_not_mem (⟨R1, w⟩ : View.Piece (Elt Ideal) S1x2048x1024 .f32) L (not_mem_R1 t e h)

/-- Row `t` of the block, in rows 1024 … 1535, is row `t.val - 1024` of store 2. -/
theorem ix_R2 (t : Fin 2048) (e : Fin 1024) (h : 1024 ≤ t.val ∧ t.val < 1024 + 512) :
    ix3 (0 : Fin 1) t e = R2.emb (ix3 (0 : Fin 1) (⟨t.val - 1024, by omega⟩ : Fin 512) e) := by
  funext a
  match a with
  | ⟨0, _⟩ => exact Fin.ext (show 0 = 0 + 1 * 0 from rfl)
  | ⟨1, _⟩ => exact Fin.ext (show t.val = 1024 + 1 * (t.val - 1024) from by omega)
  | ⟨2, _⟩ => exact Fin.ext (show e.val = 0 + 1 * e.val from by omega)

/-- and outside those rows it is not in store 2. -/
theorem not_mem_R2 (t : Fin 2048) (e : Fin 1024) (h : ¬(1024 ≤ t.val ∧ t.val < 1024 + 512)) : ix3 (0 : Fin 1) t e ∉ R2.set := fun hm =>
  h ((Rect.mem_set_unit.mp hm) 1)

/-- Row `r` of store 2 is row `1024 + r.val` of the block. -/
theorem emb_R2 (r : Fin 512) (e : Fin 1024) : R2.emb (ix3 (0 : Fin 1) r e) = ix3 (0 : Fin 1) (⟨1024 + r.val, by omega⟩ : Fin 2048) e := by
  funext a
  match a with
  | ⟨0, _⟩ => exact Fin.ext (show 0 + 1 * 0 = 0 from rfl)
  | ⟨1, _⟩ => exact Fin.ext (show 1024 + 1 * r.val = 1024 + r.val from by omega)
  | ⟨2, _⟩ => exact Fin.ext (show 0 + 1 * e.val = e.val from by omega)

/-- Inside its rows the last store decides, -/
theorem canon_hit2 (G : S1x2048x1024.Idx → EReal) (w : R2.shape.Idx → EReal) (L : List (View.Piece (Elt Ideal) S1x2048x1024 .f32))
    (hw : ∀ x, w x = G (R2.emb x)) (t : Fin 2048) (e : Fin 1024) (h : 1024 ≤ t.val ∧ t.val < 1024 + 512) :
    View.canon ((⟨R2, w⟩ : View.Piece (Elt Ideal) S1x2048x1024 .f32) :: L) (ix3 (0 : Fin 1) t e) = G (ix3 (0 : Fin 1) t e) := by
  obtain ⟨x, hx⟩ : ∃ x : R2.shape.Idx, ix3 (0 : Fin 1) t e = R2.emb x := ⟨_, ix_R2 t e h⟩
  rw [hx, View.canon_cons_emb]
  exact hw x

/-- and outside them the earlier ones do. -/
theorem canon_miss2 (w : R2.shape.Idx → EReal) (L : List (View.Piece (Elt Ideal) S1x2048x1024 .f32))
    (t : Fin 2048) (e : Fin 1024) (h : ¬(1024 ≤ t.val ∧ t.val < 1024 + 512)) :
    View.canon ((⟨R2, w⟩ : View.Piece (Elt Ideal) S1x2048x1024 .f32) :: L) (ix3 (0 : Fin 1) t e) = View.canon L (ix3 (0 : Fin 1) t e) :=
  View.canon_cons_of_not_mem (⟨R2, w⟩ : View.Piece (Elt Ideal) S1x2048x1024 .f32) L (not_mem_R2 t e h)

/-- Row `t` of the block, in rows 1536 … 2047, is row `t.val - 1536` of store 3. -/
theorem ix_R3 (t : Fin 2048) (e : Fin 1024) (h : 1536 ≤ t.val ∧ t.val < 1536 + 512) :
    ix3 (0 : Fin 1) t e = R3.emb (ix3 (0 : Fin 1) (⟨t.val - 1536, by omega⟩ : Fin 512) e) := by
  funext a
  match a with
  | ⟨0, _⟩ => exact Fin.ext (show 0 = 0 + 1 * 0 from rfl)
  | ⟨1, _⟩ => exact Fin.ext (show t.val = 1536 + 1 * (t.val - 1536) from by omega)
  | ⟨2, _⟩ => exact Fin.ext (show e.val = 0 + 1 * e.val from by omega)

/-- and outside those rows it is not in store 3. -/
theorem not_mem_R3 (t : Fin 2048) (e : Fin 1024) (h : ¬(1536 ≤ t.val ∧ t.val < 1536 + 512)) : ix3 (0 : Fin 1) t e ∉ R3.set := fun hm =>
  h ((Rect.mem_set_unit.mp hm) 1)

/-- Row `r` of store 3 is row `1536 + r.val` of the block. -/
theorem emb_R3 (r : Fin 512) (e : Fin 1024) : R3.emb (ix3 (0 : Fin 1) r e) = ix3 (0 : Fin 1) (⟨1536 + r.val, by omega⟩ : Fin 2048) e := by
  funext a
  match a with
  | ⟨0, _⟩ => exact Fin.ext (show 0 + 1 * 0 = 0 from rfl)
  | ⟨1, _⟩ => exact Fin.ext (show 1536 + 1 * r.val = 1536 + r.val from by omega)
  | ⟨2, _⟩ => exact Fin.ext (show 0 + 1 * e.val = e.val from by omega)

/-- Inside its rows the last store decides, -/
theorem canon_hit3 (G : S1x2048x1024.Idx → EReal) (w : R3.shape.Idx → EReal) (L : List (View.Piece (Elt Ideal) S1x2048x1024 .f32))
    (hw : ∀ x, w x = G (R3.emb x)) (t : Fin 2048) (e : Fin 1024) (h : 1536 ≤ t.val ∧ t.val < 1536 + 512) :
    View.canon ((⟨R3, w⟩ : View.Piece (Elt Ideal) S1x2048x1024 .f32) :: L) (ix3 (0 : Fin 1) t e) = G (ix3 (0 : Fin 1) t e) := by
  obtain ⟨x, hx⟩ : ∃ x : R3.shape.Idx, ix3 (0 : Fin 1) t e = R3.emb x := ⟨_, ix_R3 t e h⟩
  rw [hx, View.canon_cons_emb]
  exact hw x

/-- and outside them the earlier ones do. -/
theorem canon_miss3 (w : R3.shape.Idx → EReal) (L : List (View.Piece (Elt Ideal) S1x2048x1024 .f32))
    (t : Fin 2048) (e : Fin 1024) (h : ¬(1536 ≤ t.val ∧ t.val < 1536 + 512)) :
    View.canon ((⟨R3, w⟩ : View.Piece (Elt Ideal) S1x2048x1024 .f32) :: L) (ix3 (0 : Fin 1) t e) = View.canon L (ix3 (0 : Fin 1) t e) :=
  View.canon_cons_of_not_mem (⟨R3, w⟩ : View.Piece (Elt Ideal) S1x2048x1024 .f32) L (not_mem_R3 t e h)

/-- Where each of the four stores is a block of `G`, the block reads `G`, whatever was stored before them. -/
theorem canon_chunks (G : S1x2048x1024.Idx → EReal) (w3 : R3.shape.Idx → EReal) (w2 : R2.shape.Idx → EReal) (w1 : R1.shape.Idx → EReal)
    (w0 : R0.shape.Idx → EReal) (L' : List (View.Piece (Elt Ideal) S1x2048x1024 .f32))
    (h3 : ∀ x, w3 x = G (R3.emb x)) (h2 : ∀ x, w2 x = G (R2.emb x)) (h1 : ∀ x, w1 x = G (R1.emb x)) (h0 : ∀ x, w0 x = G (R0.emb x))
    (t : Fin 2048) (e : Fin 1024) :
    View.canon ((⟨R3, w3⟩ : View.Piece (Elt Ideal) S1x2048x1024 .f32) :: ⟨R2, w2⟩ :: ⟨R1, w1⟩ :: ⟨R0, w0⟩ :: L') (ix3 (0 : Fin 1) t e)
      = G (ix3 (0 : Fin 1) t e) := by
  have ht : t.val < 2048 := t.isLt
  by_cases c3 : 1536 ≤ t.val ∧ t.val < 1536 + 512
  · exact canon_hit3 G w3 _ h3 t e c3
  refine (canon_miss3 w3 _ t e c3).trans ?_
  by_cases c2 : 1024 ≤ t.val ∧ t.val < 1024 + 512
  · exact canon_hit2 G w2 _ h2 t e c2
  refine (canon_miss2 w2 _ t e c2).trans ?_
  by_cases c1 : 512 ≤ t.val ∧ t.val < 512 + 512
  · exact canon_hit1 G w1 _ h1 t e c1
  refine (canon_miss1 w1 _ t e c1).trans ?_
  exact canon_hit0 G w0 _ h0 t e (by omega)

/-! ## The two cases -/

/-- The tile's sums at row `t`, column `e`, over its projected rows. -/
theorem tileSum_eq (t : Fin 2048) (e : Fin 1024) :
    Pay.tileSum x1 (k1_pay5 x0 x2 x3 x4 x5) t e = ∑ s : Fin 256, Cert.Spec.weightK (Pay.P x0 x2 x3 x4 x5 s) (Pay.Tm x1) t e := by
  unfold Pay.tileSum
  exact Finset.sum_congr rfl fun s _ => by rw [pay5_row]

/-- What a later tile leaves: the block it found plus the tile's sums, as one function of the block's index. -/
def GB (xo7 : Vec Ideal S1x2048x1024 .f32) : S1x2048x1024.Idx → EReal := fun y =>
  xo7 y + Pay.tileSum x1 (k1_pay5 x0 x2 x3 x4 x5) (⟨(y 1).val, (y 1).isLt⟩ : Fin 2048) (⟨(y 2).val, (y 2).isLt⟩ : Fin 1024)

/-- What a first tile leaves: zero plus the tile's sums. -/
def GA : S1x2048x1024.Idx → EReal := fun y =>
  0 + Pay.tileSum x1 (k1_pay5 x0 x2 x3 x4 x5) (⟨(y 1).val, (y 1).isLt⟩ : Fin 2048) (⟨(y 2).val, (y 2).isLt⟩ : Fin 1024)

section LaterTile
variable (xo7 : Vec Ideal S1x2048x1024 .f32)

theorem storeB0 (x : R0.shape.Idx) :
    k1_pay12 (F := Ideal) (k1_pay5 x0 x2 x3 x4 x5) (FloatOps.ofBits .f32 0x3D000000#32) x1 (View.ld xo7 R0) x = GB x0 x1 x2 x3 x4 x5 xo7 (R0.emb x) := by
  rw [chunk_ix x]
  refine (Pay.pay12_apply x1 (k1_pay5 x0 x2 x3 x4 x5) (View.ld xo7 R0) _ _).trans ?_
  show xo7 (R0.emb _) + _ = _
  rw [emb_R0]
  rfl
theorem storeB1 (x : R1.shape.Idx) :
    k1_pay1 (F := Ideal) (k1_pay13 (k1_pay5 x0 x2 x3 x4 x5) (FloatOps.ofBits .f32 0x3D000000#32) x1) (View.ld xo7 R1) x = GB x0 x1 x2 x3 x4 x5 xo7 (R1.emb x) := by
  rw [chunk_ix x]
  refine (Pay.pay1_apply x1 (k1_pay5 x0 x2 x3 x4 x5) (View.ld xo7 R1) _ _).trans ?_
  show xo7 (R1.emb _) + _ = _
  rw [emb_R1]
  rfl
theorem storeB2 (x : R2.shape.Idx) :
    k1_pay2 (F := Ideal) (k1_pay9 (k1_pay5 x0 x2 x3 x4 x5) (FloatOps.ofBits .f32 0x3D000000#32) x1) (k1_pay11 (k1_pay5 x0 x2 x3 x4 x5) (FloatOps.ofBits .f32 0x3D000000#32) x1) (View.ld xo7 R2) x = GB x0 x1 x2 x3 x4 x5 xo7 (R2.emb x) := by
  rw [chunk_ix x]
  refine (Pay.pay2_apply x1 (k1_pay5 x0 x2 x3 x4 x5) (View.ld xo7 R2) _ _).trans ?_
  show xo7 (R2.emb _) + _ = _
  rw [emb_R2]
  rfl
theorem storeB3 (x : R3.shape.Idx) :
    k1_pay3 (F := Ideal) (k1_pay9 (k1_pay5 x0 x2 x3 x4 x5) (FloatOps.ofBits .f32 0x3D000000#32) x1) (k1_pay11 (k1_pay5 x0 x2 x3 x4 x5) (FloatOps.ofBits .f32 0x3D000000#32) x1) (View.ld xo7 R3) x = GB x0 x1 x2 x3 x4 x5 xo7 (R3.emb x) := by
  rw [chunk_ix x]
  refine (Pay.pay3_apply x1 (k1_pay5 x0 x2 x3 x4 x5) (View.ld xo7 R3) _ _).trans ?_
  show xo7 (R3.emb _) + _ = _
  rw [emb_R3]
  rfl

end LaterTile

/-- The text-side block at a later tile: what the tile before left plus the tile's sums. -/
theorem outB7_apply (hc0 : ¬cond1_0 i) (xo7 : Vec Ideal S1x2048x1024 .f32) (t : Fin 2048) (e : Fin 1024) :
    out1_B_7 (F := Ideal) c i arg2 harg2 arg3 harg3 arg4 harg4 arg5 harg5 arg6 harg6 arg7 harg7 arg8 harg8 arg9 harg9 hc0 x0 x1 x2 x3 x4 x5 xo7 (ix3 (0 : Fin 1) t e)
      = xo7 (ix3 (0 : Fin 1) t e) + ∑ s : Fin 256, Cert.Spec.weightK (Pay.P x0 x2 x3 x4 x5 s) (Pay.Tm x1) t e := by
  unfold out1_B_7
  rw [View.read_writes_eq_canon _ _ _ (cover1_B_7 c i arg2 harg2 arg3 harg3 arg4 harg4 arg5 harg5 arg6 harg6 arg7 harg7 arg8 harg8 arg9 harg9 hc0 x0 x1 x2 x3 x4 x5 xo7)]
  unfold kernelRun1_B
  dsimp only
  sl_unfold_words
  simp only [View.readAt_eq_ld, harg2.read_unread, harg3.read_unread, harg4.read_unread, harg5.read_unread, harg6.read_unread, harg7.read_unread, harg9.read_unread,
    View.ld_unit_zero (S := S1x256x1024) hz3, View.ld_unit_zero (S := S1x2048x1024) hz3, View.ld_unit_zero (S := S1x1024) hz2, View.ld_unit_zero (S := S1024x1024) hz2]
  refine (canon_chunks (GB x0 x1 x2 x3 x4 x5 xo7) _ _ _ _ [] (storeB3 x0 x1 x2 x3 x4 x5 xo7) (storeB2 x0 x1 x2 x3 x4 x5 xo7)
    (storeB1 x0 x1 x2 x3 x4 x5 xo7) (storeB0 x0 x1 x2 x3 x4 x5 xo7) t e).trans ?_
  unfold GB
  rw [← tileSum_eq]

section FirstTile

/-- Behind the stores of other rows and the reset, rows 0 … 511 read zero. -/
theorem zeroA0 (r : Fin 512) (e : Fin 1024) :
    arg9.view.readCov [(⟨RW, k1_pay4 (F := Ideal)⟩ : View.Piece (Elt Ideal) S1x2048x1024 .f32)] R0.toLoadRect (ix3 (0 : Fin 1) r e) = 0 := by
  rw [View.readCov_eq_canon']
  show View.canon [(⟨RW, k1_pay4 (F := Ideal)⟩ : View.Piece (Elt Ideal) S1x2048x1024 .f32)] (R0.emb (ix3 (0 : Fin 1) r e)) = 0
  rw [View.canon_unit_zero hz3]
  exact Pay.pay4_apply _
theorem zeroA1 (w0 : R0.shape.Idx → EReal) (r : Fin 512) (e : Fin 1024) :
    arg9.view.readCov [(⟨R0, w0⟩ : View.Piece (Elt Ideal) S1x2048x1024 .f32), (⟨RW, k1_pay4 (F := Ideal)⟩ : View.Piece (Elt Ideal) S1x2048x1024 .f32)] R1.toLoadRect (ix3 (0 : Fin 1) r e) = 0 := by
  rw [View.readCov_eq_canon']
  show View.canon [(⟨R0, w0⟩ : View.Piece (Elt Ideal) S1x2048x1024 .f32), (⟨RW, k1_pay4 (F := Ideal)⟩ : View.Piece (Elt Ideal) S1x2048x1024 .f32)] (R1.emb (ix3 (0 : Fin 1) r e)) = 0
  rw [emb_R1, canon_miss0 _ _ (⟨512 + r.val, by omega⟩ : Fin 2048) e (show ¬(0 ≤ 512 + r.val ∧ 512 + r.val < 0 + 512) from by omega), View.canon_unit_zero hz3]
  exact Pay.pay4_apply _
theorem zeroA2 (w1 : R1.shape.Idx → EReal) (w0 : R0.shape.Idx → EReal) (r : Fin 512) (e : Fin 1024) :
    arg9.view.readCov [(⟨R1, w1⟩ : View.Piece (Elt Ideal) S1x2048x1024 .f32), ⟨R0, w0⟩, (⟨RW, k1_pay4 (F := Ideal)⟩ : View.Piece (Elt Ideal) S1x2048x1024 .f32)] R2.toLoadRect (ix3 (0 : Fin 1) r e) = 0 := by
  rw [View.readCov_eq_canon']
  show View.canon [(⟨R1, w1⟩ : View.Piece (Elt Ideal) S1x2048x1024 .f32), ⟨R0, w0⟩, (⟨RW, k1_pay4 (F := Ideal)⟩ : View.Piece (Elt Ideal) S1x2048x1024 .f32)] (R2.emb (ix3 (0 : Fin 1) r e)) = 0
  rw [emb_R2, canon_miss1 _ _ (⟨1024 + r.val, by omega⟩ : Fin 2048) e (show ¬(512 ≤ 1024 + r.val ∧ 1024 + r.val < 512 + 512) from by omega), canon_miss0 _ _ (⟨1024 + r.val, by omega⟩ : Fin 2048) e (show ¬(0 ≤ 1024 + r.val ∧ 1024 + r.val < 0 + 512) from by omega), View.canon_unit_zero hz3]
  exact Pay.pay4_apply _
theorem zeroA3 (w2 : R2.shape.Idx → EReal) (w1 : R1.shape.Idx → EReal) (w0 : R0.shape.Idx → EReal) (r : Fin 512) (e : Fin 1024) :
    arg9.view.readCov [(⟨R2, w2⟩ : View.Piece (Elt Ideal) S1x2048x1024 .f32), ⟨R1, w1⟩, ⟨R0, w0⟩, (⟨RW, k1_pay4 (F := Ideal)⟩ : View.Piece (Elt Ideal) S1x2048x1024 .f32)] R3.toLoadRect (ix3 (0 : Fin 1) r e) = 0 := by
  rw [View.readCov_eq_canon']
  show View.canon [(⟨R2, w2⟩ : View.Piece (Elt Ideal) S1x2048x1024 .f32), ⟨R1, w1⟩, ⟨R0, w0⟩, (⟨RW, k1_pay4 (F := Ideal)⟩ : View.Piece (Elt Ideal) S1x2048x1024 .f32)] (R3.emb (ix3 (0 : Fin 1) r e)) = 0
  rw [emb_R3, canon_miss2 _ _ (⟨1536 + r.val, by omega⟩ : Fin 2048) e (show ¬(1024 ≤ 1536 + r.val ∧ 1536 + r.val < 1024 + 512) from by omega), canon_miss1 _ _ (⟨1536 + r.val, by omega⟩ : Fin 2048) e (show ¬(512 ≤ 1536 + r.val ∧ 1536 + r.val < 512 + 512) from by omega), canon_miss0 _ _ (⟨1536 + r.val, by omega⟩ : Fin 2048) e (show ¬(0 ≤ 1536 + r.val ∧ 1536 + r.val < 0 + 512) from by omega), View.canon_unit_zero hz3]
  exact Pay.pay4_apply _

theorem storeA0 (x : R0.shape.Idx) :
    k1_pay12 (F := Ideal) (k1_pay5 x0 x2 x3 x4 x5) (FloatOps.ofBits .f32 0x3D000000#32) x1 (arg9.view.readCov [(⟨RW, k1_pay4 (F := Ideal)⟩ : View.Piece (Elt Ideal) S1x2048x1024 .f32)] R0.toLoadRect) x = GA x0 x1 x2 x3 x4 x5 (R0.emb x) := by
  rw [chunk_ix x]
  refine (Pay.pay12_apply x1 (k1_pay5 x0 x2 x3 x4 x5) _ _ _).trans ?_
  rw [emb_R0, zeroA0]
  rfl
theorem storeA1 (w0 : R0.shape.Idx → EReal) (x : R1.shape.Idx) :
    k1_pay1 (F := Ideal) (k1_pay13 (k1_pay5 x0 x2 x3 x4 x5) (FloatOps.ofBits .f32 0x3D000000#32) x1) (arg9.view.readCov [(⟨R0, w0⟩ : View.Piece (Elt Ideal) S1x2048x1024 .f32), (⟨RW, k1_pay4 (F := Ideal)⟩ : View.Piece (Elt Ideal) S1x2048x1024 .f32)] R1.toLoadRect) x
      = GA x0 x1 x2 x3 x4 x5 (R1.emb x) := by
  rw [chunk_ix x]
  refine (Pay.pay1_apply x1 (k1_pay5 x0 x2 x3 x4 x5) _ _ _).trans ?_
  rw [emb_R1, zeroA1]
  rfl
theorem storeA2 (w1 : R1.shape.Idx → EReal) (w0 : R0.shape.Idx → EReal) (x : R2.shape.Idx) :
    k1_pay2 (F := Ideal) (k1_pay9 (k1_pay5 x0 x2 x3 x4 x5) (FloatOps.ofBits .f32 0x3D000000#32) x1) (k1_pay11 (k1_pay5 x0 x2 x3 x4 x5) (FloatOps.ofBits .f32 0x3D000000#32) x1)
      (arg9.view.readCov [(⟨R1, w1⟩ : View.Piece (Elt Ideal) S1x2048x1024 .f32), ⟨R0, w0⟩, (⟨RW, k1_pay4 (F := Ideal)⟩ : View.Piece (Elt Ideal) S1x2048x1024 .f32)] R2.toLoadRect) x
      = GA x0 x1 x2 x3 x4 x5 (R2.emb x) := by
  rw [chunk_ix x]
  refine (Pay.pay2_apply x1 (k1_pay5 x0 x2 x3 x4 x5) _ _ _).trans ?_
  rw [emb_R2, zeroA2]
  rfl
theorem storeA3 (w2 : R2.shape.Idx → EReal) (w1 : R1.shape.Idx → EReal) (w0 : R0.shape.Idx → EReal) (x : R3.shape.Idx) :
    k1_pay3 (F := Ideal) (k1_pay9 (k1_pay5 x0 x2 x3 x4 x5) (FloatOps.ofBits .f32 0x3D000000#32) x1) (k1_pay11 (k1_pay5 x0 x2 x3 x4 x5) (FloatOps.ofBits .f32 0x3D000000#32) x1)
      (arg9.view.readCov [(⟨R2, w2⟩ : View.Piece (Elt Ideal) S1x2048x1024 .f32), ⟨R1, w1⟩, ⟨R0, w0⟩, (⟨RW, k1_pay4 (F := Ideal)⟩ : View.Piece (Elt Ideal) S1x2048x1024 .f32)] R3.toLoadRect) x
      = GA x0 x1 x2 x3 x4 x5 (R3.emb x) := by
  rw [chunk_ix x]
  refine (Pay.pay3_apply x1 (k1_pay5 x0 x2 x3 x4 x5) _ _ _).trans ?_
  rw [emb_R3, zeroA3]
  rfl

/-- The text-side block at a first tile: zero plus the tile's sums. -/
theorem outA7_apply (hc0 : cond1_0 i) (t : Fin 2048) (e : Fin 1024) :
    out1_A_7 (F := Ideal) c i arg2 harg2 arg3 harg3 arg4 harg4 arg5 harg5 arg6 harg6 arg7 harg7 arg8 harg8 arg9 harg9 hc0 x0 x1 x2 x3 x4 x5 (ix3 (0 : Fin 1) t e)
      = 0 + ∑ s : Fin 256, Cert.Spec.weightK (Pay.P x0 x2 x3 x4 x5 s) (Pay.Tm x1) t e := by
  unfold out1_A_7
  rw [View.read_writes_eq_canon _ _ _ (cover1_A_7 c i arg2 harg2 arg3 harg3 arg4 harg4 arg5 harg5 arg6 harg6 arg7 harg7 arg8 harg8 arg9 harg9 hc0 x0 x1 x2 x3 x4 x5)]
  unfold kernelRun1_A
  dsimp only
  sl_unfold_words
  simp only [View.readAt_eq_ld, harg2.read_unread, harg3.read_unread, harg4.read_unread, harg5.read_unread, harg6.read_unread, harg7.read_unread,
    View.ld_unit_zero (S := S1x256x1024) hz3, View.ld_unit_zero (S := S1x2048x1024) hz3, View.ld_unit_zero (S := S1x1024) hz2, View.ld_unit_zero (S := S1024x1024) hz2]
  refine (canon_chunks (GA x0 x1 x2 x3 x4 x5) _ _ _ _ [(⟨RW, k1_pay4 (F := Ideal)⟩ : View.Piece (Elt Ideal) S1x2048x1024 .f32)] (storeA3 arg9 x0 x1 x2 x3 x4 x5 _ _ _) (storeA2 arg9 x0 x1 x2 x3 x4 x5 _ _)
    (storeA1 arg9 x0 x1 x2 x3 x4 x5 _) (storeA0 arg9 x0 x1 x2 x3 x4 x5) t e).trans ?_
  unfold GA
  rw [← tileSum_eq]

end FirstTile

end Cert.KernelIdeal.Pieces

end
-- ==== Proof.Region1.lean ====
/-
  The second kernel's two result arrays. Grid point n = 8·b + j handles tile j (256 image rows) of batch entry b. The
  image-side block of every point is written back, and the 64 blocks tile the array. The text-side block of a batch
  entry stays resident over its eight points, reset at the first and added into at the others, and is written back
  after the eighth: the fold of the eight tiles' sums from zero.
-/
import proofs.«423824_j47811575939396_3_alg».proof.Proof.Gen.KernelIdeal.Frame
import proofs.«423824_j47811575939396_3_alg».proof.Proof.Region1Pieces
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen

/-- The block indices of the eight windows at every grid point: point t is tile t % 8 of batch entry t / 8. -/
theorem idx_facts : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val / 8 ∧ win1_6.index t (1 : Fin 3) = t.val % 8 ∧ win1_6.index t (2 : Fin 3) = 0)
    ∧ (win1_7.index t (0 : Fin 3) = t.val / 8 ∧ win1_7.index t (1 : Fin 3) = 0 ∧ win1_7.index t (2 : Fin 3) = 0) :=
  (by decide +kernel : ∀ t : Fin grid1.N, _)

/-! ## Where an element of a point's block sits in its array -/

/-- Row s of the image tile of point t is row 256·(t % 8) + s of batch entry t / 8. -/
theorem emb0 (t : Fin cfg1.N) (s : Fin 256) (d : Fin 1024) (b : Fin 8) (r : Fin 2048)
    (hb : b.val = t.val / 8) (hr : r.val = 256 * (t.val % 8) + s.val) :
    ((cfg1.win 0).blk t).view.emb (ix3 (0 : Fin 1) s d) = (ix3 b r d : S8x2048x1024.Idx) := by
  obtain ⟨⟨e0, e1, e2⟩, -⟩ := idx_facts t
  funext a
  apply Fin.ext
  match a with
  | ⟨0, _⟩ => show win1_0.index t (0 : Fin 3) * 1 + 1 * (0 : Fin 1).val = b.val; rw [e0, hb]; simp
  | ⟨1, _⟩ => show win1_0.index t (1 : Fin 3) * 256 + 1 * s.val = r.val; rw [e1, hr]; omega
  | ⟨2, _⟩ => show win1_0.index t (2 : Fin 3) * 1024 + 1 * d.val = d.val; rw [e2]; omega

/-- The text block of point t is the whole slab of batch entry t / 8. -/
theorem emb1 (t : Fin cfg1.N) (r : Fin 2048) (e : Fin 1024) (b : Fin 8) (hb : b.val = t.val / 8) :
    ((cfg1.win 1).blk t).view.emb (ix3 (0 : Fin 1) r e) = (ix3 b r e : S8x2048x1024.Idx) := by
  obtain ⟨-, ⟨e0, e1, e2⟩, -⟩ := idx_facts t
  funext a
  apply Fin.ext
  match a with
  | ⟨0, _⟩ => show win1_1.index t (0 : Fin 3) * 1 + 1 * (0 : Fin 1).val = b.val; rw [e0, hb]; simp
  | ⟨1, _⟩ => show win1_1.index t (1 : Fin 3) * 2048 + 1 * r.val = r.val; rw [e1]; omega
  | ⟨2, _⟩ => show win1_1.index t (2 : Fin 3) * 1024 + 1 * e.val = e.val; rw [e2]; omega

/-- The scale row's block is the whole row. -/
theorem emb2 (t : Fin cfg1.N) (d : Fin 1024) :
    ((cfg1.win 2).blk t).view.emb (ix2 (0 : Fin 1) d) = (ix2 (0 : Fin 1) d : S1x1024.Idx) := by
  obtain ⟨-, -, ⟨e0, e1⟩, -⟩ := idx_facts t
  funext a
  apply Fin.ext
  match a with
  | ⟨0, _⟩ => show win1_2.index t (0 : Fin 2) * 1 + 1 * (0 : Fin 1).val = (0 : Fin 1).val; rw [e0]; simp
  | ⟨1, _⟩ => show win1_2.index t (1 : Fin 2) * 1024 + 1 * d.val = d.val; rw [e1]; omega

/-- The shift row's block is the whole row. -/
theorem emb3 (t : Fin cfg1.N) (d : Fin 1024) :
    ((cfg1.win 3).blk t).view.emb (ix2 (0 : Fin 1) d) = (ix2 (0 : Fin 1) d : S1x1024.Idx) := by
  obtain ⟨-, -, -, ⟨e0, e1⟩, -⟩ := idx_facts t
  funext a
  apply Fin.ext
  match a with
  | ⟨0, _⟩ => show win1_3.index t (0 : Fin 2) * 1 + 1 * (0 : Fin 1).val = (0 : Fin 1).val; rw [e0]; simp
  | ⟨1, _⟩ => show win1_3.index t (1 : Fin 2) * 1024 + 1 * d.val = d.val; rw [e1]; omega

/-- The weight matrix's block is the whole matrix. -/
theorem emb4 (t : Fin cfg1.N) (d e : Fin 1024) :
    ((cfg1.win 4).blk t).view.emb (ix2 d e) = (ix2 d e : S1024x1024.Idx) := by
  obtain ⟨-, -, -, -, ⟨e0, e1⟩, -⟩ := idx_facts t
  funext a
  apply Fin.ext
  match a with
  | ⟨0, _⟩ => show win1_4.index t (0 : Fin 2) * 1024 + 1 * d.val = d.val; rw [e0]; omega
  | ⟨1, _⟩ => show win1_4.index t (1 : Fin 2) * 1024 + 1 * e.val = e.val; rw [e1]; omega

/-- The bias row's block is the whole row. -/
theorem emb5 (t : Fin cfg1.N) (d : Fin 1024) :
    ((cfg1.win 5).blk t).view.emb (ix2 (0 : Fin 1) d) = (ix2 (0 : Fin 1) d : S1x1024.Idx) := by
  obtain ⟨-, -, -, -, -, ⟨e0, e1⟩, -⟩ := idx_facts t
  funext a
  apply Fin.ext
  match a with
  | ⟨0, _⟩ => show win1_5.index t (0 : Fin 2) * 1 + 1 * (0 : Fin 1).val = (0 : Fin 1).val; rw [e0]; simp
  | ⟨1, _⟩ => show win1_5.index t (1 : Fin 2) * 1024 + 1 * d.val = d.val; rw [e1]; omega

/-- Row s of the image-side output block of point t is row 256·(t % 8) + s of batch entry t / 8. -/
theorem emb6 (t : Fin cfg1.N) (s : Fin 256) (d : Fin 1024) (b : Fin 8) (r : Fin 2048)
    (hb : b.val = t.val / 8) (hr : r.val = 256 * (t.val % 8) + s.val) :
    ((cfg1.win 6).blk t).view.emb (ix3 (0 : Fin 1) s d) = (ix3 b r d : S8x2048x1024.Idx) := by
  obtain ⟨-, -, -, -, -, -, ⟨e0, e1, e2⟩, -⟩ := idx_facts t
  funext a
  apply Fin.ext
  match a with
  | ⟨0, _⟩ => show win1_6.index t (0 : Fin 3) * 1 + 1 * (0 : Fin 1).val = b.val; rw [e0, hb]; simp
  | ⟨1, _⟩ => show win1_6.index t (1 : Fin 3) * 256 + 1 * s.val = r.val; rw [e1, hr]; omega
  | ⟨2, _⟩ => show win1_6.index t (2 : Fin 3) * 1024 + 1 * d.val = d.val; rw [e2]; omega

/-- The text-side output block of point t is the whole slab of batch entry t / 8. -/
theorem emb7 (t : Fin cfg1.N) (r : Fin 2048) (e : Fin 1024) (b : Fin 8) (hb : b.val = t.val / 8) :
    ((cfg1.win 7).blk t).view.emb (ix3 (0 : Fin 1) r e) = (ix3 b r e : S8x2048x1024.Idx) := by
  obtain ⟨-, -, -, -, -, -, -, ⟨e0, e1, e2⟩⟩ := idx_facts t
  funext a
  apply Fin.ext
  match a with
  | ⟨0, _⟩ => show win1_7.index t (0 : Fin 3) * 1 + 1 * (0 : Fin 1).val = b.val; rw [e0, hb]; simp
  | ⟨1, _⟩ => show win1_7.index t (1 : Fin 3) * 2048 + 1 * r.val = r.val; rw [e1]; omega
  | ⟨2, _⟩ => show win1_7.index t (2 : Fin 3) * 1024 + 1 * e.val = e.val; rw [e2]; omega

/-! ## The input blocks of a point, read at an index -/

section Blocks
variable (V : (c : Dev nD) → (b : Ref sig .tc) → Buf (Elt Ideal) ((c : Thread nD τ).loc b)) (c : Dev nD)

/-- The six input blocks of point t, each by its literal type. -/
abbrev xblk (t : Fin cfg1.N) : Vec Ideal S1x256x1024 .f32 := iblk1 V c 0 t
abbrev tblk (t : Fin cfg1.N) : Vec Ideal S1x2048x1024 .bf16 := iblk1 V c 1 t
abbrev lwblk (t : Fin cfg1.N) : Vec Ideal S1x1024 .f32 := iblk1 V c 2 t
abbrev lbblk (t : Fin cfg1.N) : Vec Ideal S1x1024 .f32 := iblk1 V c 3 t
abbrev wblk (t : Fin cfg1.N) : Vec Ideal S1024x1024 .bf16 := iblk1 V c 4 t
abbrev bblk (t : Fin cfg1.N) : Vec Ideal S1x1024 .f32 := iblk1 V c 5 t

theorem xblk_apply (t : Fin cfg1.N) (s : Fin 256) (d : Fin 1024) (b : Fin 8) (r : Fin 2048)
    (hb : b.val = t.val / 8) (hr : r.val = 256 * (t.val % 8) + s.val) :
    xblk V c t (ix3 (0 : Fin 1) s d) = (V c main_arg0 : S8x2048x1024.Idx → EReal) (ix3 b r d) :=
  congrArg (V c main_arg0 : S8x2048x1024.Idx → EReal) (emb0 t s d b r hb hr)

theorem tblk_apply (t : Fin cfg1.N) (r : Fin 2048) (e : Fin 1024) (b : Fin 8) (hb : b.val = t.val / 8) :
    tblk V c t (ix3 (0 : Fin 1) r e) = (V c main_v8 : S8x2048x1024.Idx → EReal) (ix3 b r e) :=
  congrArg (V c main_v8 : S8x2048x1024.Idx → EReal) (emb1 t r e b hb)

theorem lwblk_apply (t : Fin cfg1.N) (d : Fin 1024) :
    lwblk V c t (ix2 (0 : Fin 1) d) = (V c main_v0 : S1x1024.Idx → EReal) (ix2 (0 : Fin 1) d) :=
  congrArg (V c main_v0 : S1x1024.Idx → EReal) (emb2 t d)

theorem lbblk_apply (t : Fin cfg1.N) (d : Fin 1024) :
    lbblk V c t (ix2 (0 : Fin 1) d) = (V c main_v1 : S1x1024.Idx → EReal) (ix2 (0 : Fin 1) d) :=
  congrArg (V c main_v1 : S1x1024.Idx → EReal) (emb3 t d)

theorem wblk_apply (t : Fin cfg1.N) (d e : Fin 1024) :
    wblk V c t (ix2 d e) = (V c main_v5 : S1024x1024.Idx → EReal) (ix2 d e) :=
  congrArg (V c main_v5 : S1024x1024.Idx → EReal) (emb4 t d e)

theorem bblk_apply (t : Fin cfg1.N) (d : Fin 1024) :
    bblk V c t (ix2 (0 : Fin 1) d) = (V c main_v2 : S1x1024.Idx → EReal) (ix2 (0 : Fin 1) d) :=
  congrArg (V c main_v2 : S1x1024.Idx → EReal) (emb5 t d)

end Blocks

section
variable (V : (c : Dev nD) → (b : Ref sig .tc) → Buf (Elt Ideal) ((c : Thread nD τ).loc b)) (c : Dev nD)
  (IMG TP : Fin 8 → Fin 2048 → Fin 1024 → EReal) (LW LB : Fin 1024 → EReal) (WI : Fin 1024 → Fin 1024 → EReal) (BI : Fin 1024 → EReal)
  (h0 : ∀ b s d, (V c main_arg0 : S8x2048x1024.Idx → EReal) (ix3 b s d) = IMG b s d)
  (h1 : ∀ b t e, (V c main_v8 : S8x2048x1024.Idx → EReal) (ix3 b t e) = TP b t e)
  (h2 : ∀ d, (V c main_v0 : S1x1024.Idx → EReal) (ix2 (0 : Fin 1) d) = LW d)
  (h3 : ∀ d, (V c main_v1 : S1x1024.Idx → EReal) (ix2 (0 : Fin 1) d) = LB d)
  (h4 : ∀ d e, (V c main_v5 : S1024x1024.Idx → EReal) (ix2 d e) = WI e d)
  (h5 : ∀ e, (V c main_v2 : S1x1024.Idx → EReal) (ix2 (0 : Fin 1) e) = BI e)

include h0 h2 h3 h4 h5 in
/-- Row s of the tile of point t, normalised and projected, is the projected image row 256·(t % 8) + s of batch entry t / 8. -/
theorem P_blk (t : Fin cfg1.N) (s : Fin 256) (b : Fin 8) (r : Fin 2048)
    (hb : b.val = t.val / 8) (hr : r.val = 256 * (t.val % 8) + s.val) :
    Pay.P (xblk V c t) (lwblk V c t) (lbblk V c t) (wblk V c t) (bblk V c t) s = Cert.Spec.proj (IMG b r) LW LB WI BI := by
  have a0 : (fun d => xblk V c t (ix3 (0 : Fin 1) s d)) = IMG b r := funext fun d => (xblk_apply V c t s d b r hb hr).trans (h0 b r d)
  have a2 : (fun d => lwblk V c t (ix2 (0 : Fin 1) d)) = LW := funext fun d => (lwblk_apply V c t d).trans (h2 d)
  have a3 : (fun d => lbblk V c t (ix2 (0 : Fin 1) d)) = LB := funext fun d => (lbblk_apply V c t d).trans (h3 d)
  have a4 : (fun e d => wblk V c t (ix2 d e)) = WI := funext fun e => funext fun d => (wblk_apply V c t d e).trans (h4 d e)
  have a5 : (fun e => bblk V c t (ix2 (0 : Fin 1) e)) = BI := funext fun e => (bblk_apply V c t e).trans (h5 e)
  funext e
  show Cert.Spec.proj (fun d => xblk V c t (ix3 (0 : Fin 1) s d)) (fun d => lwblk V c t (ix2 (0 : Fin 1) d))
    (fun d => lbblk V c t (ix2 (0 : Fin 1) d)) (fun e d => wblk V c t (ix2 d e)) (fun e => bblk V c t (ix2 (0 : Fin 1) e)) e = _
  rw [a0, a2, a3, a4, a5]

include h1 in
/-- The text block of point t holds the projected text rows of batch entry t / 8. -/
theorem Tm_blk (t : Fin cfg1.N) (b : Fin 8) (hb : b.val = t.val / 8) : Pay.Tm (tblk V c t) = TP b :=
  funext fun r => funext fun e => (tblk_apply V c t r e b hb).trans (h1 b r e)

end

/-! ## The image-side array -/

/-- A block index of the image-side block is (0, s, e). -/
theorem blk6_ix3 (y : S1x256x1024.Idx) : y = ix3 (0 : Fin 1) (y 1) (y 2) := by
  funext a
  match a with
  | ⟨0, _⟩ => exact Fin.ext (by have : (y 0).val < 1 := (y 0).isLt; show (y 0).val = 0; omega)
  | ⟨1, _⟩ => rfl
  | ⟨2, _⟩ => rfl

/-- An index of the array is in point t's image-side block iff each coordinate is in the block's range on its axis. -/
theorem mem_blk6 (t : Fin cfg1.N) (i : S8x2048x1024.Idx) :
    i ∈ ((cfg1.win 6).blk t).view.set ↔ ∀ a : Fin 3, win1_6.index t a * S1x256x1024.size a ≤ (i a).val
      ∧ (i a).val < win1_6.index t a * S1x256x1024.size a + S1x256x1024.size a := by
  show i ∈ ((View.whole main_v9_0).slice (win1_6.rect t)).set ↔ _
  rw [View.set_slice_whole, Rect.mem_set_unit]
  exact Iff.rfl

/-- Row s of batch entry b lies in the block of point 8·b + s / 256. -/
theorem cover6 (i : S8x2048x1024.Idx) :
    ∃ t : Fin cfg1.N, (cfg1.win 6).flush t = true ∧ i ∈ ((cfg1.win 6).blk t).view.set := by
  have i0 : (i 0).val < 8 := (i 0).isLt
  have i1 : (i 1).val < 2048 := (i 1).isLt
  have i2 : (i 2).val < 1024 := (i 2).isLt
  have hN : cfg1.N = 64 := N_1
  refine ⟨⟨8 * (i 0).val + (i 1).val / 256, by rw [hN]; omega⟩, flush1_6 _, ?_⟩
  rw [mem_blk6]
  obtain ⟨-, -, -, -, -, -, ⟨e0, e1, e2⟩, -⟩ := idx_facts ⟨8 * (i 0).val + (i 1).val / 256, by rw [hN]; omega⟩
  dsimp only at e0 e1 e2
  intro a
  match a with
  | ⟨0, _⟩ =>
    show win1_6.index _ (0 : Fin 3) * 1 ≤ (i 0).val ∧ (i 0).val < win1_6.index _ (0 : Fin 3) * 1 + 1
    rw [e0]; omega
  | ⟨1, _⟩ =>
    show win1_6.index _ (1 : Fin 3) * 256 ≤ (i 1).val ∧ (i 1).val < win1_6.index _ (1 : Fin 3) * 256 + 256
    rw [e1]; omega
  | ⟨2, _⟩ =>
    show win1_6.index _ (2 : Fin 3) * 1024 ≤ (i 2).val ∧ (i 2).val < win1_6.index _ (2 : Fin 3) * 1024 + 1024
    rw [e2]; omega

section
variable (V : (c : Dev nD) → (b : Ref sig .tc) → Buf (Elt Ideal) ((c : Thread nD τ).loc b)) (c : Dev nD)
  (IMG TP : Fin 8 → Fin 2048 → Fin 1024 → EReal) (LW LB : Fin 1024 → EReal) (WI : Fin 1024 → Fin 1024 → EReal) (BI : Fin 1024 → EReal)
  (h0 : ∀ b s d, (V c main_arg0 : S8x2048x1024.Idx → EReal) (ix3 b s d) = IMG b s d)
  (h1 : ∀ b t e, (V c main_v8 : S8x2048x1024.Idx → EReal) (ix3 b t e) = TP b t e)
  (h2 : ∀ d, (V c main_v0 : S1x1024.Idx → EReal) (ix2 (0 : Fin 1) d) = LW d)
  (h3 : ∀ d, (V c main_v1 : S1x1024.Idx → EReal) (ix2 (0 : Fin 1) d) = LB d)
  (h4 : ∀ d e, (V c main_v5 : S1024x1024.Idx → EReal) (ix2 d e) = WI e d)
  (h5 : ∀ e, (V c main_v2 : S1x1024.Idx → EReal) (ix2 (0 : Fin 1) e) = BI e)

/-- The image-side array's contents: row (b, s) against the text rows of b. -/
abbrev G6 : S8x2048x1024.Idx → EReal := fun i =>
  Cert.Spec.imgRowK (Cert.Spec.proj (IMG (i 0) (i 1)) LW LB WI BI) (TP (i 0)) (i 2)

include h0 h1 h2 h3 h4 h5 in
/-- What point t leaves in the image-side block, at row s: the normalised weighted sums of image row 256·(t % 8) + s of
    batch entry t / 8, in either control case. -/
theorem out6_apply (t : Fin cfg1.N) (s : Fin 256) (e : Fin 1024) (b : Fin 8) (r : Fin 2048)
    (hb : b.val = t.val / 8) (hr : r.val = 256 * (t.val % 8) + s.val) :
    (outsAt1 V c t.val t.isLt).1 (ix3 (0 : Fin 1) s e)
      = Cert.Spec.imgRowK (Cert.Spec.proj (IMG b r) LW LB WI BI) (TP b) e := by
  by_cases h : t.val % 8 = 0
  · rw [outsAt1_A V c t h]
    dsimp only
    refine (Pieces.outA6_apply c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) (ms1_7 t) (hs1_7 t)
      (xblk V c t) (tblk V c t) (lwblk V c t) (lbblk V c t) (wblk V c t) (bblk V c t) ((hcond1_0 t).mpr h) s e).trans ?_
    rw [P_blk V c IMG LW LB WI BI h0 h2 h3 h4 h5 t s b r hb hr, Tm_blk V c TP h1 t b hb]
  · rw [outsAt1_B V c t h]
    dsimp only
    refine (Pieces.outB6_apply c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) (ms1_7 t) (hs1_7 t)
      (xblk V c t) (tblk V c t) (lwblk V c t) (lbblk V c t) (wblk V c t) (bblk V c t) (fun h' => h ((hcond1_0 t).mp h'))
      (outsAt1 V c (t.val - 1) (Nat.lt_of_le_of_lt (Nat.sub_le _ _) t.isLt)).2 s e).trans ?_
    rw [P_blk V c IMG LW LB WI BI h0 h2 h3 h4 h5 t s b r hb hr, Tm_blk V c TP h1 t b hb]

include h0 h1 h2 h3 h4 h5 in
/-- What point t writes back of the image-side output is its block of the array's contents. -/
theorem flushed6_eq (t : Fin cfg1.N) :
    (dat1 V c).flushed 6 t = ((cfg1.win 6).blk t).view.read (Elt Ideal) (G6 IMG TP LW LB WI BI) := by
  have hN : t.val < 64 := lt_of_lt_of_eq t.isLt (show cfg1.N = 64 from N_1)
  show (cfg1.win 6).cut (grid1.coords t) ((dat1 V c).after 6 t) = _
  rw [after1_6]
  refine funext fun (y : S1x256x1024.Idx) => ?_
  obtain ⟨s, e, rfl⟩ : ∃ (s : Fin 256) (e : Fin 1024), y = ix3 (0 : Fin 1) s e := ⟨y 1, y 2, blk6_ix3 y⟩
  have hb : (⟨t.val / 8, by omega⟩ : Fin 8).val = t.val / 8 := rfl
  have hr : (⟨256 * (t.val % 8) + s.val, by have := s.isLt; omega⟩ : Fin 2048).val = 256 * (t.val % 8) + s.val := rfl
  refine (out6_apply V c IMG TP LW LB WI BI h0 h1 h2 h3 h4 h5 t s e _ _ hb hr).trans ?_
  exact (congrArg (G6 IMG TP LW LB WI BI) (emb6 t s e _ _ hb hr)).symm

end

/-! ## The text-side array -/

/-- A block index of the text-side block is (0, r, e). -/
theorem blk7_ix3 (y : S1x2048x1024.Idx) : y = ix3 (0 : Fin 1) (y 1) (y 2) := by
  funext a
  match a with
  | ⟨0, _⟩ => exact Fin.ext (by have : (y 0).val < 1 := (y 0).isLt; show (y 0).val = 0; omega)
  | ⟨1, _⟩ => rfl
  | ⟨2, _⟩ => rfl

/-- An index of the array is in point t's text-side block iff each coordinate is in the block's range on its axis. -/
theorem mem_blk7 (t : Fin cfg1.N) (i : S8x2048x1024.Idx) :
    i ∈ ((cfg1.win 7).blk t).view.set ↔ ∀ a : Fin 3, win1_7.index t a * S1x2048x1024.size a ≤ (i a).val
      ∧ (i a).val < win1_7.index t a * S1x2048x1024.size a + S1x2048x1024.size a := by
  show i ∈ ((View.whole main_v9_1).slice (win1_7.rect t)).set ↔ _
  rw [View.set_slice_whole, Rect.mem_set_unit]
  exact Iff.rfl

/-- Every index of batch entry b lies in the block written back at point 8·b + 7. -/
theorem cover7 (i : S8x2048x1024.Idx) :
    ∃ t : Fin cfg1.N, (cfg1.win 7).flush t = true ∧ i ∈ ((cfg1.win 7).blk t).view.set := by
  have i0 : (i 0).val < 8 := (i 0).isLt
  have i1 : (i 1).val < 2048 := (i 1).isLt
  have i2 : (i 2).val < 1024 := (i 2).isLt
  have hN : cfg1.N = 64 := N_1
  refine ⟨⟨8 * (i 0).val + 7, by rw [hN]; omega⟩, (flush1_7 _).mpr (by dsimp only; omega), ?_⟩
  rw [mem_blk7]
  obtain ⟨-, -, -, -, -, -, -, ⟨e0, e1, e2⟩⟩ := idx_facts ⟨8 * (i 0).val + 7, by rw [hN]; omega⟩
  dsimp only at e0 e1 e2
  intro a
  match a with
  | ⟨0, _⟩ =>
    show win1_7.index _ (0 : Fin 3) * 1 ≤ (i 0).val ∧ (i 0).val < win1_7.index _ (0 : Fin 3) * 1 + 1
    rw [e0]; omega
  | ⟨1, _⟩ =>
    show win1_7.index _ (1 : Fin 3) * 2048 ≤ (i 1).val ∧ (i 1).val < win1_7.index _ (1 : Fin 3) * 2048 + 2048
    rw [e1]; omega
  | ⟨2, _⟩ =>
    show win1_7.index _ (2 : Fin 3) * 1024 ≤ (i 2).val ∧ (i 2).val < win1_7.index _ (2 : Fin 3) * 1024 + 1024
    rw [e2]; omega

section
variable (V : (c : Dev nD) → (b : Ref sig .tc) → Buf (Elt Ideal) ((c : Thread nD τ).loc b)) (c : Dev nD)
  (IMG TP : Fin 8 → Fin 2048 → Fin 1024 → EReal) (LW LB : Fin 1024 → EReal) (WI : Fin 1024 → Fin 1024 → EReal) (BI : Fin 1024 → EReal)
  (h0 : ∀ b s d, (V c main_arg0 : S8x2048x1024.Idx → EReal) (ix3 b s d) = IMG b s d)
  (h1 : ∀ b t e, (V c main_v8 : S8x2048x1024.Idx → EReal) (ix3 b t e) = TP b t e)
  (h2 : ∀ d, (V c main_v0 : S1x1024.Idx → EReal) (ix2 (0 : Fin 1) d) = LW d)
  (h3 : ∀ d, (V c main_v1 : S1x1024.Idx → EReal) (ix2 (0 : Fin 1) d) = LB d)
  (h4 : ∀ d e, (V c main_v5 : S1024x1024.Idx → EReal) (ix2 d e) = WI e d)
  (h5 : ∀ e, (V c main_v2 : S1x1024.Idx → EReal) (ix2 (0 : Fin 1) e) = BI e)

/-- What tile j of batch entry b adds to the text-side result at (r, e): the sum over its 256 image rows. -/
abbrev tile (b : Fin 8) (j : ℕ) (r : Fin 2048) (e : Fin 1024) : EReal :=
  ∑ s' : Fin 256, Cert.Spec.weightK (Cert.Spec.proj (IMG b (Cert.Spec.rowOf j s')) LW LB WI BI) (TP b) r e

/-- The text-side array's contents: from zero, the eight tiles' sums in order. -/
abbrev G7 : S8x2048x1024.Idx → EReal := fun i =>
  0 + ∑ j ∈ Finset.range 8, tile IMG TP LW LB WI BI (i 0) j (i 1) (i 2)

include h0 h1 h2 h3 h4 h5 in
/-- The sums of point t over its own blocks are tile t % 8 of batch entry t / 8. -/
theorem tile_pt (t : Fin cfg1.N) (b : Fin 8) (hb : b.val = t.val / 8) (r : Fin 2048) (e : Fin 1024) :
    ∑ s : Fin 256, Cert.Spec.weightK (Pay.P (xblk V c t) (lwblk V c t) (lbblk V c t) (wblk V c t) (bblk V c t) s) (Pay.Tm (tblk V c t)) r e
      = tile IMG TP LW LB WI BI b (t.val % 8) r e := by
  refine Finset.sum_congr rfl fun s _ => ?_
  have hr : (Cert.Spec.rowOf (t.val % 8) s).val = 256 * (t.val % 8) + s.val := by
    show (256 * (t.val % 8) + s.val) % 2048 = _
    have := s.isLt
    omega
  rw [P_blk V c IMG LW LB WI BI h0 h2 h3 h4 h5 t s b _ hb hr, Tm_blk V c TP h1 t b hb]

include h0 h1 h2 h3 h4 h5 in
/-- At the first tile of a batch entry the text-side block is zero plus that tile's sums. -/
theorem out7_first (t : Fin cfg1.N) (h : t.val % 8 = 0) (b : Fin 8) (hb : b.val = t.val / 8) (r : Fin 2048) (e : Fin 1024) :
    (outsAt1 V c t.val t.isLt).2 (ix3 (0 : Fin 1) r e) = 0 + tile IMG TP LW LB WI BI b (t.val % 8) r e := by
  rw [outsAt1_A V c t h]
  dsimp only
  refine (Pieces.outA7_apply c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (ms1_7 t) (hs1_7 t)
    (xblk V c t) (tblk V c t) (lwblk V c t) (lbblk V c t) (wblk V c t) (bblk V c t) ((hcond1_0 t).mpr h) r e).trans ?_
  rw [tile_pt V c IMG TP LW LB WI BI h0 h1 h2 h3 h4 h5 t b hb r e]

include h0 h1 h2 h3 h4 h5 in
/-- At a later tile it is what the tile before left plus this tile's sums. -/
theorem out7_later (t : Fin cfg1.N) (h : ¬t.val % 8 = 0) (b : Fin 8) (hb : b.val = t.val / 8) (r : Fin 2048) (e : Fin 1024) :
    (outsAt1 V c t.val t.isLt).2 (ix3 (0 : Fin 1) r e)
      = (outsAt1 V c (t.val - 1) (Nat.lt_of_le_of_lt (Nat.sub_le _ _) t.isLt)).2 (ix3 (0 : Fin 1) r e)
        + tile IMG TP LW LB WI BI b (t.val % 8) r e := by
  rw [outsAt1_B V c t h]
  dsimp only
  refine (Pieces.outB7_apply c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (ms1_7 t) (hs1_7 t)
    (xblk V c t) (tblk V c t) (lwblk V c t) (lbblk V c t) (wblk V c t) (bblk V c t) (fun h' => h ((hcond1_0 t).mp h'))
    (outsAt1 V c (t.val - 1) (Nat.lt_of_le_of_lt (Nat.sub_le _ _) t.isLt)).2 r e).trans ?_
  rw [tile_pt V c IMG TP LW LB WI BI h0 h1 h2 h3 h4 h5 t b hb r e]

include h0 h1 h2 h3 h4 h5 in
/-- After point n the text-side block holds zero plus the sums of tiles 0 … n % 8 of batch entry n / 8, added in order:
    by induction on the point. -/
theorem acc7 : ∀ (n : ℕ) (hn : n < cfg1.N) (b : Fin 8) (_ : b.val = n / 8) (r : Fin 2048) (e : Fin 1024),
    (outsAt1 V c n hn).2 (ix3 (0 : Fin 1) r e) = 0 + ∑ j ∈ Finset.range (n % 8 + 1), tile IMG TP LW LB WI BI b j r e
  | 0, hn, b, hb, r, e => by
    rw [out7_first V c IMG TP LW LB WI BI h0 h1 h2 h3 h4 h5 ⟨0, hn⟩ rfl b hb r e]
    show 0 + tile IMG TP LW LB WI BI b (0 % 8) r e = 0 + ∑ j ∈ Finset.range (0 % 8 + 1), tile IMG TP LW LB WI BI b j r e
    rw [Nat.zero_mod, Finset.sum_range_one]
  | n + 1, hn, b, hb, r, e => by
    by_cases h8 : (n + 1) % 8 = 0
    · rw [out7_first V c IMG TP LW LB WI BI h0 h1 h2 h3 h4 h5 ⟨n + 1, hn⟩ h8 b hb r e]
      show 0 + tile IMG TP LW LB WI BI b ((n + 1) % 8) r e = _
      rw [h8, Finset.sum_range_one]
    · have hb' : b.val = n / 8 := by omega
      have e1 : (n + 1) % 8 = n % 8 + 1 := by omega
      rw [out7_later V c IMG TP LW LB WI BI h0 h1 h2 h3 h4 h5 ⟨n + 1, hn⟩ h8 b hb r e]
      show (outsAt1 V c n _).2 (ix3 (0 : Fin 1) r e) + tile IMG TP LW LB WI BI b ((n + 1) % 8) r e = _
      rw [acc7 n (Nat.lt_of_succ_lt hn) b hb' r e, e1, Finset.sum_range_succ _ (n % 8 + 1), add_assoc]

include h0 h1 h2 h3 h4 h5 in
/-- What a writing point (the eighth of its batch entry) writes back of the text-side output is its block of the array's contents. -/
theorem flushed7_eq (t : Fin cfg1.N) (hf : (cfg1.win 7).flush t = true) :
    (dat1 V c).flushed 7 t = ((cfg1.win 7).blk t).view.read (Elt Ideal) (G7 IMG TP LW LB WI BI) := by
  have hN : t.val < 64 := lt_of_lt_of_eq t.isLt (show cfg1.N = 64 from N_1)
  have h7 : t.val % 8 = 7 := (flush1_7 t).mp hf
  show (cfg1.win 7).cut (grid1.coords t) ((dat1 V c).after 7 t) = _
  rw [after1_7]
  refine funext fun (y : S1x2048x1024.Idx) => ?_
  obtain ⟨r, e, rfl⟩ : ∃ (r : Fin 2048) (e : Fin 1024), y = ix3 (0 : Fin 1) r e := ⟨y 1, y 2, blk7_ix3 y⟩
  have hb : (⟨t.val / 8, by omega⟩ : Fin 8).val = t.val / 8 := rfl
  refine (acc7 V c IMG TP LW LB WI BI h0 h1 h2 h3 h4 h5 t.val t.isLt _ hb r e).trans ?_
  rw [h7]
  exact (congrArg (G7 IMG TP LW LB WI BI) (emb7 t r e _ hb)).symm

end

/-! ## The two result arrays -/

section
variable (V : (c : Dev nD) → (b : Ref sig .tc) → Buf (Elt Ideal) ((c : Thread nD τ).loc b)) (c : Dev nD)
  (IMG TP : Fin 8 → Fin 2048 → Fin 1024 → EReal) (LW LB : Fin 1024 → EReal) (WI : Fin 1024 → Fin 1024 → EReal) (BI : Fin 1024 → EReal)
  (h0 : ∀ b s d, (V c main_arg0 : S8x2048x1024.Idx → EReal) (ix3 b s d) = IMG b s d)
  (h1 : ∀ b t e, (V c main_v8 : S8x2048x1024.Idx → EReal) (ix3 b t e) = TP b t e)
  (h2 : ∀ d, (V c main_v0 : S1x1024.Idx → EReal) (ix2 (0 : Fin 1) d) = LW d)
  (h3 : ∀ d, (V c main_v1 : S1x1024.Idx → EReal) (ix2 (0 : Fin 1) d) = LB d)
  (h4 : ∀ d e, (V c main_v5 : S1024x1024.Idx → EReal) (ix2 d e) = WI e d)
  (h5 : ∀ e, (V c main_v2 : S1x1024.Idx → EReal) (ix2 (0 : Fin 1) e) = BI e)
include h0 h1 h2 h3 h4 h5

/-- The image-side array after the region's last write-back: row (b, s) against the text rows of b. -/
theorem image_out (b : Fin 8) (s : Fin 2048) (e : Fin 1024) :
    ((dat1 V c).arrAt 6 cfg1.N : S8x2048x1024.Idx → EReal) (ix3 b s e)
      = Cert.Spec.imgRowK (Cert.Spec.proj (IMG b s) LW LB WI BI) (TP b) e :=
  congrFun ((dat1 V c).arrAt_eq_of_cover 6 (G6 IMG TP LW LB WI BI)
    (fun t _ => flushed6_eq V c IMG TP LW LB WI BI h0 h1 h2 h3 h4 h5 t) cover6) (ix3 b s e)

/-- The text-side array after the region's last write-back: from zero, the eight tiles' sums in order. -/
theorem text_out (b : Fin 8) (t : Fin 2048) (e : Fin 1024) :
    ((dat1 V c).arrAt 7 cfg1.N : S8x2048x1024.Idx → EReal) (ix3 b t e)
      = 0 + ∑ j ∈ Finset.range 8, ∑ s' : Fin 256,
          Cert.Spec.weightK (Cert.Spec.proj (IMG b (Cert.Spec.rowOf j s')) LW LB WI BI) (TP b) t e :=
  congrFun ((dat1 V c).arrAt_eq_of_cover 7 (G7 IMG TP LW LB WI BI)
    (fun t hf => flushed7_eq V c IMG TP LW LB WI BI h0 h1 h2 h3 h4 h5 t hf) cover7) (ix3 b t e)

end

end Cert.KernelIdeal.Region1

end
-- ==== Proof.KernelValue.lean ====
/-
  The first program's two result arrays as functions of its eight argument arrays. The first kernel leaves the
  projected text rows; the second kernel reads them together with the image tower and leaves, entry by entry, the
  image-side and the text-side results of the specification.
-/
import proofs.«423824_j47811575939396_3_alg».proof.Proof.KernelRun
import proofs.«423824_j47811575939396_3_alg».proof.Proof.HostReads
import proofs.«423824_j47811575939396_3_alg».proof.Proof.Region0
import proofs.«423824_j47811575939396_3_alg».proof.Proof.Region1
import proofs.«423824_j47811575939396_3_alg».proof.Proof.Spec

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen

/-- The array of a function of three coordinates. -/
def arr3 (f : Fin 8 → Fin 2048 → Fin 1024 → EReal) : (⟨3, ![8, 2048, 1024]⟩ : Shape).Idx → EReal :=
  fun i => f (i 0) (i 1) (i 2)

theorem arr3_apply (f : Fin 8 → Fin 2048 → Fin 1024 → EReal) (b : Fin 8) (s : Fin 2048) (e : Fin 1024) :
    arr3 f (ix3 b s e) = f b s e := rfl

variable (m : (ℓ : Loc nD τ sig) → Buf (Elt Ideal) ℓ) (ρ : Dev nD → PrngReg) (c : Dev nD)

/-- The eight argument arrays as launched. -/
abbrev a0 : S8x2048x1024.Idx → EReal := m ((c.tc : Thread nD τ).loc main_arg0)
abbrev a1 : S8x2048x1024.Idx → EReal := m ((c.tc : Thread nD τ).loc main_arg1)
abbrev a2 : S1024.Idx → EReal := m ((c.tc : Thread nD τ).loc main_arg2)
abbrev a3 : S1024.Idx → EReal := m ((c.tc : Thread nD τ).loc main_arg3)
abbrev a4 : S1024x1024.Idx → EReal := m ((c.tc : Thread nD τ).loc main_arg4)
abbrev a5 : S1024.Idx → EReal := m ((c.tc : Thread nD τ).loc main_arg5)
abbrev a6 : S1024x1024.Idx → EReal := m ((c.tc : Thread nD τ).loc main_arg6)
abbrev a7 : S1024.Idx → EReal := m ((c.tc : Thread nD τ).loc main_arg7)

/-! ## What the first kernel is entered with -/

theorem r0_txt (b : Fin 8) (t : Fin 2048) (d : Fin 1024) :
    (V1 m ρ c main_arg1 : S8x2048x1024.Idx → EReal) (ix3 b t d) = a1 m c (ix3 b t d) :=
  congrFun (HostReads.V1_arg1 m ρ c) _

theorem r0_scale (d : Fin 1024) : (V1 m ρ c main_v0 : S1x1024.Idx → EReal) (ix2 (0 : Fin 1) d) = a2 m c (ix1 d) :=
  (congrFun (HostReads.V1_v0 m ρ c) _).trans (HostReads.row_apply _ d)

theorem r0_shift (d : Fin 1024) : (V1 m ρ c main_v1 : S1x1024.Idx → EReal) (ix2 (0 : Fin 1) d) = a3 m c (ix1 d) :=
  (congrFun (HostReads.V1_v1 m ρ c) _).trans (HostReads.row_apply _ d)

theorem r0_weight (d e : Fin 1024) : (V1 m ρ c main_v7 : S1024x1024.Idx → EReal) (ix2 d e) = a6 m c (ix2 e d) :=
  (congrFun (HostReads.V1_v7 m ρ c) _).trans (HostReads.transposed_apply _ d e)

theorem r0_bias (e : Fin 1024) : (V1 m ρ c main_v3 : S1x1024.Idx → EReal) (ix2 (0 : Fin 1) e) = a7 m c (ix1 e) :=
  (congrFun (HostReads.V1_v3 m ρ c) _).trans (HostReads.row_apply _ e)

/-! ## What the second kernel is entered with -/

theorem r1_img (b : Fin 8) (s : Fin 2048) (d : Fin 1024) :
    (V2 m ρ c main_arg0 : S8x2048x1024.Idx → EReal) (ix3 b s d) = a0 m c (ix3 b s d) :=
  congrFun ((HostReads.V2_arg0 m ρ c).trans (HostReads.V1_arg0 m ρ c)) _

/-- The projected text rows: the first kernel's result array. -/
theorem r1_tp (b : Fin 8) (t : Fin 2048) (e : Fin 1024) :
    (V2 m ρ c main_v8 : S8x2048x1024.Idx → EReal) (ix3 b t e)
      = Cert.Spec.tpArr (a1 m c) (a2 m c) (a3 m c) (a6 m c) (a7 m c) b t e :=
  (congrFun (HostReads.V2_v8 m ρ c) _).trans
    (Region0.text_proj (V1 m ρ) c (fun b t d => a1 m c (ix3 b t d)) (fun d => a2 m c (ix1 d)) (fun d => a3 m c (ix1 d))
      (fun e d => a6 m c (ix2 e d)) (fun e => a7 m c (ix1 e))
      (r0_txt m ρ c) (r0_scale m ρ c) (r0_shift m ρ c) (r0_weight m ρ c) (r0_bias m ρ c) b t e)

theorem r1_scale (d : Fin 1024) : (V2 m ρ c main_v0 : S1x1024.Idx → EReal) (ix2 (0 : Fin 1) d) = a2 m c (ix1 d) :=
  (congrFun (HostReads.V2_v0 m ρ c) _).trans (r0_scale m ρ c d)

theorem r1_shift (d : Fin 1024) : (V2 m ρ c main_v1 : S1x1024.Idx → EReal) (ix2 (0 : Fin 1) d) = a3 m c (ix1 d) :=
  (congrFun (HostReads.V2_v1 m ρ c) _).trans (r0_shift m ρ c d)

theorem r1_weight (d e : Fin 1024) : (V2 m ρ c main_v5 : S1024x1024.Idx → EReal) (ix2 d e) = a4 m c (ix2 e d) :=
  (congrFun ((HostReads.V2_v5 m ρ c).trans (HostReads.V1_v5 m ρ c)) _).trans (HostReads.transposed_apply _ d e)

theorem r1_bias (e : Fin 1024) : (V2 m ρ c main_v2 : S1x1024.Idx → EReal) (ix2 (0 : Fin 1) e) = a5 m c (ix1 e) :=
  (congrFun ((HostReads.V2_v2 m ρ c).trans (HostReads.V1_v2 m ρ c)) _).trans (HostReads.row_apply _ e)

/-! ## The two result arrays -/

/-- The image-side result array is the specification's, entry by entry. -/
theorem out0_eq : W3 m ρ c (Proc.devRef .tc main_v9_0)
    = arr3 (Cert.Spec.imageOutK (a0 m c) (a1 m c) (a2 m c) (a3 m c) (a4 m c) (a5 m c) (a6 m c) (a7 m c)) := by
  rw [HostReads.W3_v9_0]
  funext i
  obtain ⟨b, s, e, rfl⟩ : ∃ (b : Fin 8) (s : Fin 2048) (e : Fin 1024), i = ix3 b s e := ⟨i 0, i 1, i 2, eq_ix3 i⟩
  rw [arr3_apply]
  exact Region1.image_out (V2 m ρ) c (fun b s d => a0 m c (ix3 b s d))
    (Cert.Spec.tpArr (a1 m c) (a2 m c) (a3 m c) (a6 m c) (a7 m c)) (fun d => a2 m c (ix1 d)) (fun d => a3 m c (ix1 d))
    (fun e d => a4 m c (ix2 e d)) (fun e => a5 m c (ix1 e))
    (r1_img m ρ c) (r1_tp m ρ c) (r1_scale m ρ c) (r1_shift m ρ c) (r1_weight m ρ c) (r1_bias m ρ c) b s e

/-- The text-side result array is the specification's, entry by entry. -/
theorem out1_eq : W3 m ρ c (Proc.devRef .tc main_v9_1)
    = arr3 (Cert.Spec.textOutK (a0 m c) (a1 m c) (a2 m c) (a3 m c) (a4 m c) (a5 m c) (a6 m c) (a7 m c)) := by
  rw [HostReads.W3_v9_1]
  funext i
  obtain ⟨b, t, e, rfl⟩ : ∃ (b : Fin 8) (t : Fin 2048) (e : Fin 1024), i = ix3 b t e := ⟨i 0, i 1, i 2, eq_ix3 i⟩
  rw [arr3_apply]
  exact Region1.text_out (V2 m ρ) c (fun b s d => a0 m c (ix3 b s d))
    (Cert.Spec.tpArr (a1 m c) (a2 m c) (a3 m c) (a6 m c) (a7 m c)) (fun d => a2 m c (ix1 d)) (fun d => a3 m c (ix1 d))
    (fun e d => a4 m c (ix2 e d)) (fun e => a5 m c (ix1 e))
    (r1_img m ρ c) (r1_tp m ρ c) (r1_scale m ρ c) (r1_shift m ρ c) (r1_weight m ρ c) (r1_bias m ρ c) b t e

/-- The run with its results named by the specification: every weakly fair execution terminates, nothing faulting,
    with the two result arrays the specification's image-side and text-side results of the argument arrays, and
    the arguments as launched. -/
theorem run : θ_run (Cert.KernelIdeal.defs (F := Ideal)) (onTc (τ := τ) (Cert.KernelIdeal.main (F := Ideal))) ⟨m, fun _ => 0, ρ⟩
    (fun r => ∀ c : Dev nD,
      r.2.mem ((c.tc : Thread nD τ).loc main_v9_0)
        = arr3 (Cert.Spec.imageOutK (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7)))
      ∧ r.2.mem ((c.tc : Thread nD τ).loc main_v9_1)
        = arr3 (Cert.Spec.textOutK (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨(h c).1.trans (out0_eq m ρ c), (h c).2.1.trans (out1_eq m ρ c), (h c).2.2⟩)
    (run_outs m ρ)

end Cert.KernelIdeal.KernelValue

end
-- ==== Proof.RefValue.lean ====
/-
  The second program's two results, read one operation at a time, are the softmax-weighted sums of the specification.

  Each tower (image, text) normalises a row — mean, centred entries, variance, reciprocal square root of variance + ε,
  scale and shift — and projects it; the scaled inner products of a projected image row with the projected text rows are
  its scores; the exponentials of the scores less their maximum, divided by their sum, are its softmax weights; the first
  result sums the weights against the text rows, the second sums them, over the image rows, against the image rows.
-/
import proofs.«423824_j47811575939396_3_alg».proof.Proof.Gen.ReferenceIdeal.Read
import proofs.«423824_j47811575939396_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The two towers are one term

The text tower's operations are the image tower's, spelled again at the text array and its own weights. -/

/-- The text tower's normalised rows are the image tower's at the text array. -/
theorem v47_eq_v23 {F : FTy → Type} [FloatOps F] (x1 : (⟨S8x2048x1024, .f32⟩ : BufTy).Contents (Elt F)) (x2 x3 : (⟨S1024, .f32⟩ : BufTy).Contents (Elt F)) :
    val_main_v47 (F := F) x1 x2 x3 = val_main_v23 (F := F) x1 x2 x3 := rfl

/-- The text tower's projected rows are the image tower's at the text array, weights and bias. -/
theorem v55_eq_v51 {F : FTy → Type} [FloatOps F] (x1 : (⟨S8x2048x1024, .f32⟩ : BufTy).Contents (Elt F)) (x2 x3 : (⟨S1024, .f32⟩ : BufTy).Contents (Elt F))
    (x6 : (⟨S1024x1024, .f32⟩ : BufTy).Contents (Elt F)) (x7 : (⟨S1024, .f32⟩ : BufTy).Contents (Elt F)) :
    val_main_v55 (F := F) x1 x2 x3 x6 x7 = val_main_v51 (F := F) x1 x2 x3 x6 x7 := rfl

/-! ## One tower: the normalised rows -/

section Tower
variable (x : (⟨S8x2048x1024, .f32⟩ : BufTy).Contents (Elt Ideal)) (w β : (⟨S1024, .f32⟩ : BufTy).Contents (Elt Ideal))
  (b : Fin 8) (s : Fin 2048)

/-- The row sum at (b, s). -/
theorem v0_at : val_main_v0 (F := Ideal) x (ix2 b s) = ∑ d : Fin 1024, x (ix3 b s d) := by
  rw [val_main_v0_apply, val_main_cst_apply, Ideal.ofBits_def, Ideal.ofBits_zero_f32, zero_add]
  exact Finset.sum_congr rfl fun k _ => congrArg x (funext fun a => Fin.ext (by match a with | ⟨0, _⟩ => rfl | ⟨1, _⟩ => rfl | ⟨2, _⟩ => rfl))

/-- The mean, kept on a unit axis. -/
theorem v3_at (z : Fin 1) : val_main_v3 (F := Ideal) x (ix3 b s z) = Spec.mean (fun d => x (ix3 b s d)) := by
  rw [val_main_v3_apply, val_main_v1_apply, val_main_v2_apply, val_main_cst_0_apply, Ideal.hostDivf_def, Ideal.ofBits_def]
  have h : idx_main_v1 (ix3 b s z) = ix2 b s := funext fun a => Fin.ext (by match a with | ⟨0, _⟩ => rfl | ⟨1, _⟩ => rfl)
  rw [h, v0_at]
  rfl

/-- The centred entries, as the variance reads them … -/
theorem v5_at (d : Fin 1024) : val_main_v5 (F := Ideal) x (ix3 b s d) = Spec.centred (fun d => x (ix3 b s d)) d := by
  rw [val_main_v5_apply, val_main_v4_apply, Ideal.subf_def]
  have h : idx_main_v4 (ix3 b s d) = ix3 b s (0 : Fin 1) := funext fun a => Fin.ext (by match a with | ⟨0, _⟩ => rfl | ⟨1, _⟩ => rfl | ⟨2, _⟩ => rfl)
  rw [h, v3_at]
  rfl

/-- … and as the normalised row reads them. -/
theorem v12_at (d : Fin 1024) : val_main_v12 (F := Ideal) x (ix3 b s d) = Spec.centred (fun d => x (ix3 b s d)) d := by
  rw [val_main_v12_apply, val_main_v11_apply, Ideal.subf_def]
  have h : idx_main_v11 (ix3 b s d) = ix3 b s (0 : Fin 1) := funext fun a => Fin.ext (by match a with | ⟨0, _⟩ => rfl | ⟨1, _⟩ => rfl | ⟨2, _⟩ => rfl)
  rw [h, v3_at]
  rfl

/-- The sum of the squared centred entries. -/
theorem v7_at : val_main_v7 (F := Ideal) x (ix2 b s)
    = ∑ d : Fin 1024, Spec.centred (fun d => x (ix3 b s d)) d * Spec.centred (fun d => x (ix3 b s d)) d := by
  rw [val_main_v7_apply, val_main_cst_1_apply, Ideal.ofBits_def, Ideal.ofBits_zero_f32, zero_add]
  refine Finset.sum_congr rfl fun k _ => ?_
  have h : idx_main_v7 (ix2 b s) k = ix3 b s k := funext fun a => Fin.ext (by match a with | ⟨0, _⟩ => rfl | ⟨1, _⟩ => rfl | ⟨2, _⟩ => rfl)
  rw [h, val_main_v6_apply, Ideal.mulf_def, v5_at]

/-- The variance, kept on a unit axis. -/
theorem v10_at (z : Fin 1) : val_main_v10 (F := Ideal) x (ix3 b s z) = Spec.variance (fun d => x (ix3 b s d)) := by
  rw [val_main_v10_apply, val_main_v8_apply, val_main_v9_apply, val_main_cst_2_apply, Ideal.hostDivf_def, Ideal.ofBits_def]
  have h : idx_main_v8 (ix3 b s z) = ix2 b s := funext fun a => Fin.ext (by match a with | ⟨0, _⟩ => rfl | ⟨1, _⟩ => rfl)
  rw [h, v7_at]
  rfl

/-- The reciprocal square root of variance + ε. -/
theorem v15_at (z : Fin 1) : val_main_v15 (F := Ideal) x (ix3 b s z)
    = Ideal.rsqrt (Spec.variance (fun d => x (ix3 b s d)) + Spec.cEps) := by
  rw [val_main_v15_apply, val_main_v14_apply, val_main_v13_apply, val_main_cst_3_apply, Ideal.hostUnary_rsqrt_def, Ideal.addf_def,
    Ideal.ofBits_def, v10_at]

/-- The scale and the shift, broadcast down the rows. -/
theorem v19_at (d : Fin 1024) : val_main_v19 (F := Ideal) w (ix3 b s d) = w (ix1 d) := by
  rw [val_main_v19_apply, val_main_v18_apply]
  exact congrArg w (funext fun a => Fin.ext (by match a with | ⟨0, _⟩ => rfl))

theorem v22_at (d : Fin 1024) : val_main_v22 (F := Ideal) β (ix3 b s d) = β (ix1 d) := by
  rw [val_main_v22_apply, val_main_v21_apply]
  exact congrArg β (funext fun a => Fin.ext (by match a with | ⟨0, _⟩ => rfl))

/-- The normalised row. -/
theorem v23_at (d : Fin 1024) : val_main_v23 (F := Ideal) x w β (ix3 b s d)
    = Spec.lnorm (fun d => x (ix3 b s d)) (fun d => w (ix1 d)) (fun d => β (ix1 d)) d := by
  rw [val_main_v23_apply, val_main_v20_apply, val_main_v17_apply, val_main_v16_apply, Ideal.addf_def, Ideal.mulf_def, Ideal.mulf_def,
    v12_at, v19_at, v22_at]
  have h : idx_main_v16 (ix3 b s d) = ix3 b s (0 : Fin 1) := funext fun a => Fin.ext (by match a with | ⟨0, _⟩ => rfl | ⟨1, _⟩ => rfl | ⟨2, _⟩ => rfl)
  rw [h, v15_at]
  rfl

end Tower

/-! ## One tower: the projected rows -/

section Proj
variable (x : (⟨S8x2048x1024, .f32⟩ : BufTy).Contents (Elt Ideal)) (w β : (⟨S1024, .f32⟩ : BufTy).Contents (Elt Ideal))
  (W : (⟨S1024x1024, .f32⟩ : BufTy).Contents (Elt Ideal)) (bias : (⟨S1024, .f32⟩ : BufTy).Contents (Elt Ideal))
  (b : Fin 8) (s : Fin 2048)

/-- The bias, broadcast down the rows. -/
theorem v50_at (e : Fin 1024) : val_main_v50 (F := Ideal) bias (ix3 b s e) = bias (ix1 e) := by
  rw [val_main_v50_apply, val_main_v49_apply]
  exact congrArg bias (funext fun a => Fin.ext (by match a with | ⟨0, _⟩ => rfl))

/-- The projected row: the normalised row against row `e` of the weights (the contraction runs over the weights' last
    axis), plus the bias. -/
theorem v51_at (e : Fin 1024) : val_main_v51 (F := Ideal) x w β W bias (ix3 b s e) = Spec.projArr w β x W bias b s e := by
  rw [val_main_v51_apply, val_main_v48_apply, Ideal.addf_def, v50_at]
  unfold Spec.projArr Spec.proj
  refine congrArg (· + _) (Finset.sum_congr rfl fun k _ => ?_)
  have hl : lidx_main_v48 (ix3 b s e) k = ix3 b s k := funext fun a => Fin.ext (by match a with | ⟨0, _⟩ => rfl | ⟨1, _⟩ => rfl | ⟨2, _⟩ => rfl)
  have hr : ridx_main_v48 (ix3 b s e) k = ix2 e k := funext fun a => Fin.ext (by match a with | ⟨0, _⟩ => rfl | ⟨1, _⟩ => rfl)
  rw [hl, hr, v23_at]

/-- The text tower's projected row. -/
theorem v55_at (e : Fin 1024) : val_main_v55 (F := Ideal) x w β W bias (ix3 b s e) = Spec.projArr w β x W bias b s e := by
  rw [v55_eq_v51, v51_at]

end Proj

/-! ## The attention weights -/

section Attn
variable (x0 x1 : (⟨S8x2048x1024, .f32⟩ : BufTy).Contents (Elt Ideal)) (x2 x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (b : Fin 8) (s : Fin 2048)

/-- The scaled score of image row `s` against text row `t`. -/
theorem v58_at (t : Fin 2048) : val_main_v58 (F := Ideal) x0 x1 x2 x3 x4 x5 x6 x7 (ix3 b s t)
    = Spec.scoreR (Spec.ipArr x0 x2 x3 x4 x5 b s) (Spec.tpArr x1 x2 x3 x6 x7 b) t := by
  rw [val_main_v58_apply, val_main_v57_apply, val_main_cst_9_apply, val_main_v56_apply, Ideal.mulf_def, Ideal.ofBits_def]
  unfold Spec.scoreR
  refine congrArg (· * _) (Finset.sum_congr rfl fun k _ => ?_)
  have hl : lidx_main_v56 (ix3 b s t) k = ix3 b s k := funext fun a => Fin.ext (by match a with | ⟨0, _⟩ => rfl | ⟨1, _⟩ => rfl | ⟨2, _⟩ => rfl)
  have hr : ridx_main_v56 (ix3 b s t) k = ix3 b t k := funext fun a => Fin.ext (by match a with | ⟨0, _⟩ => rfl | ⟨1, _⟩ => rfl | ⟨2, _⟩ => rfl)
  rw [hl, hr, v51_at, v55_at]

/-- The maximum-reduce over the text rows: the fold of `max` from -∞ over the row's scores. -/
theorem v59_at : val_main_v59 (F := Ideal) x0 x1 x2 x3 x4 x5 x6 x7 (ix2 b s)
    = (Finset.univ : Finset (Fin 2048)).fold max Spec.cNegInf (Spec.scoreR (Spec.ipArr x0 x2 x3 x4 x5 b s) (Spec.tpArr x1 x2 x3 x6 x7 b)) := by
  have h : S8x2048x2048.Reduces [2] S8x2048 := by decide
  unfold val_main_v59
  rw [Host.reduce_eq_fold_single FloatOps.maximumf _ _ reducesTo_S8x2048x2048_S8x2048_d2 h h_S_]
  have hf : (val_main_v58 (F := Ideal) x0 x1 x2 x3 x4 x5 x6 x7 ∘ h.lift (ix2 b s))
      = Spec.scoreR (Spec.ipArr x0 x2 x3 x4 x5 b s) (Spec.tpArr x1 x2 x3 x6 x7 b) := funext fun k : Fin 2048 => by
    have hk : h.lift (ix2 b s) k = ix3 b s k := funext fun c => Fin.ext (by match c with | ⟨0, _⟩ => rfl | ⟨1, _⟩ => rfl | ⟨2, _⟩ => rfl)
    show val_main_v58 (F := Ideal) x0 x1 x2 x3 x4 x5 x6 x7 (h.lift (ix2 b s) k) = _
    rw [hk, v58_at]
  exact congrArg (fun f => Finset.fold max Spec.cNegInf f (Finset.univ : Finset (Fin 2048))) hf

/-- The row maximum. -/
theorem v61_at : val_main_v61 (F := Ideal) x0 x1 x2 x3 x4 x5 x6 x7 (ix2 b s)
    = Spec.rowMaxR (Spec.ipArr x0 x2 x3 x4 x5 b s) (Spec.tpArr x1 x2 x3 x6 x7 b) := by
  rw [val_main_v61_apply, val_main_v60_apply, val_main_cst_11_apply, Ideal.maximumf_def, Ideal.ofBits_def, v59_at]
  rfl

/-- The unnormalised weight of text row `t`. -/
theorem v65_at (t : Fin 2048) : val_main_v65 (F := Ideal) x0 x1 x2 x3 x4 x5 x6 x7 (ix3 b s t)
    = Spec.probR (Spec.ipArr x0 x2 x3 x4 x5 b s) (Spec.tpArr x1 x2 x3 x6 x7 b) t := by
  rw [val_main_v65_apply, val_main_v64_apply, val_main_v63_apply, val_main_v62_apply, Ideal.hostUnary_exp_def, Ideal.subf_def, v58_at]
  have h : idx_main_v62 (idx_main_v63 (ix3 b s t)) = ix2 b s := funext fun a => Fin.ext (by match a with | ⟨0, _⟩ => rfl | ⟨1, _⟩ => rfl)
  rw [h, v61_at]
  rfl

/-- The sum of the row's unnormalised weights. -/
theorem v66_at : val_main_v66 (F := Ideal) x0 x1 x2 x3 x4 x5 x6 x7 (ix2 b s)
    = Spec.denomR (Spec.ipArr x0 x2 x3 x4 x5 b s) (Spec.tpArr x1 x2 x3 x6 x7 b) := by
  rw [val_main_v66_apply, val_main_cst_12_apply, Ideal.ofBits_def, Ideal.ofBits_zero_f32, zero_add]
  unfold Spec.denomR
  refine Finset.sum_congr rfl fun k _ => ?_
  have h : idx_main_v66 (ix2 b s) k = ix3 b s k := funext fun a => Fin.ext (by match a with | ⟨0, _⟩ => rfl | ⟨1, _⟩ => rfl | ⟨2, _⟩ => rfl)
  rw [h, v65_at]

/-- The softmax weight of text row `t`. -/
theorem v69_at (t : Fin 2048) : val_main_v69 (F := Ideal) x0 x1 x2 x3 x4 x5 x6 x7 (ix3 b s t)
    = Spec.attnR (Spec.ipArr x0 x2 x3 x4 x5 b s) (Spec.tpArr x1 x2 x3 x6 x7 b) t := by
  rw [val_main_v69_apply, val_main_v68_apply, val_main_v67_apply, Ideal.hostDivf_def, v65_at]
  have h : idx_main_v67 (idx_main_v68 (ix3 b s t)) = ix2 b s := funext fun a => Fin.ext (by match a with | ⟨0, _⟩ => rfl | ⟨1, _⟩ => rfl)
  rw [h, v66_at]
  rfl

end Attn

/-! ## The two results -/

/-- The first result at `(b, s, e)`: image row `s` of batch entry `b`, its softmax weights against the text rows. -/
theorem result0_apply (x0 x1 : (⟨S8x2048x1024, .f32⟩ : BufTy).Contents (Elt Ideal)) (x2 x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (b : Fin 8) (s : Fin 2048) (e : Fin 1024) :
    val_main_v70 (F := Ideal) x0 x1 x2 x3 x4 x5 x6 x7 (ix3 b s e) = Cert.Spec.imageOutR x0 x1 x2 x3 x4 x5 x6 x7 b s e := by
  rw [val_main_v70_apply]
  unfold Spec.imageOutR Spec.imgRowR
  refine Finset.sum_congr rfl fun k _ => ?_
  have hl : lidx_main_v70 (ix3 b s e) k = ix3 b s k := funext fun a => Fin.ext (by match a with | ⟨0, _⟩ => rfl | ⟨1, _⟩ => rfl | ⟨2, _⟩ => rfl)
  have hr : ridx_main_v70 (ix3 b s e) k = ix3 b k e := funext fun a => Fin.ext (by match a with | ⟨0, _⟩ => rfl | ⟨1, _⟩ => rfl | ⟨2, _⟩ => rfl)
  rw [hl, hr, v69_at, v55_at]

/-- The second result at `(b, t, e)`: the sum over all image rows of batch entry `b`. -/
theorem result1_apply (x0 x1 : (⟨S8x2048x1024, .f32⟩ : BufTy).Contents (Elt Ideal)) (x2 x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (b : Fin 8) (t : Fin 2048) (e : Fin 1024) :
    val_main_v71 (F := Ideal) x0 x1 x2 x3 x4 x5 x6 x7 (ix3 b t e) = Cert.Spec.textOutR x0 x1 x2 x3 x4 x5 x6 x7 b t e := by
  rw [val_main_v71_apply]
  unfold Spec.textOutR
  refine Finset.sum_congr rfl fun k _ => ?_
  have hl : lidx_main_v71 (ix3 b t e) k = ix3 b k t := funext fun a => Fin.ext (by match a with | ⟨0, _⟩ => rfl | ⟨1, _⟩ => rfl | ⟨2, _⟩ => rfl)
  have hr : ridx_main_v71 (ix3 b t e) k = ix3 b k e := funext fun a => Fin.ext (by match a with | ⟨0, _⟩ => rfl | ⟨1, _⟩ => rfl | ⟨2, _⟩ => rfl)
  rw [hl, hr, v69_at, v51_at]

end Cert.ReferenceIdeal.RefValue

end
-- ==== Proof.Bridge.lean ====
/-
  The two arrangements of one attention row agree wherever the projected rows are real numbers.
-/
import proofs.«423824_j47811575939396_3_alg».proof.Proof.Spec

noncomputable section

namespace Cert.Spec

open Idealize.ShloMosaic

namespace Bridge

/-! ## The constants -/

/-- The word for one is the real number 1. -/
theorem cOne_eq : cOne = 1 := by
  simp [cOne, Ideal.ofBits, Ideal.ieee, -EReal.coe_mul]; norm_num

/-- The word for -∞ is the bottom element. -/
theorem cNegInf_eq : cNegInf = ⊥ := by
  simp [cNegInf, Ideal.ofBits, Ideal.ieee]

/-- The scale is a real number (1/32). -/
theorem cScale_real : ∃ c : ℝ, cScale = (c : EReal) := by
  refine ⟨1 / 32, ?_⟩
  simp [cScale, Ideal.ofBits, Ideal.ieee, -EReal.coe_mul]; norm_num

/-! ## Sums and maxima of coerced reals -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, folded from ⊥, of a nonempty finite family of reals is a real. -/
theorem fold_max_real {ι : Type*} [DecidableEq ι] (s : Finset ι) (hs : s.Nonempty) (g : ι → ℝ) :
    ∃ m : ℝ, s.fold max (⊥ : EReal) (fun i => (g i : EReal)) = (m : EReal) := by
  induction s using Finset.induction_on with
  | empty => exact absurd hs Finset.not_nonempty_empty
  | insert a s ha ih =>
    rw [Finset.fold_insert ha]
    rcases s.eq_empty_or_nonempty with h0 | hne
    · subst h0
      exact ⟨g a, by simp⟩
    · obtain ⟨m, hm⟩ := ih hne
      exact ⟨max (g a) m, by rw [hm]; exact (EReal.coe_strictMono.monotone.map_max).symm⟩

/-! ## One row over the reals -/

section RealRow
variable (pr : Fin 1024 → ℝ) (Tr : Fin 2048 → Fin 1024 → ℝ) (c : ℝ)

/-- The real score: the inner product times the scale. -/
def sR (t : Fin 2048) : ℝ := (∑ e, pr e * Tr t e) * c

/-- Scaling the row first: Σ_e (p_e · c) · T_e = (Σ_e p_e · T_e) · c over the reals. -/
theorem scoreK_coe (hc : cScale = (c : EReal)) (t : Fin 2048) :
    scoreK (fun e => (pr e : EReal)) (fun t e => (Tr t e : EReal)) t = (sR pr Tr c t : EReal) := by
  unfold scoreK sR
  rw [hc, Finset.sum_mul, coe_sum]
  refine Finset.sum_congr rfl fun e _ => ?_
  rw [← EReal.coe_mul, ← EReal.coe_mul, EReal.coe_eq_coe_iff]
  ring

/-- Scaling the inner product: the same real number. -/
theorem scoreR_coe (hc : cScale = (c : EReal)) (t : Fin 2048) :
    scoreR (fun e => (pr e : EReal)) (fun t e => (Tr t e : EReal)) t = (sR pr Tr c t : EReal) := by
  unfold scoreR sR
  rw [hc, EReal.coe_mul, coe_sum]
  simp only [EReal.coe_mul]

/-- Both arrangements have the same real maximum. -/
theorem rowMaxK_real (hc : cScale = (c : EReal)) :
    ∃ m : ℝ, rowMaxK (fun e => (pr e : EReal)) (fun t e => (Tr t e : EReal)) = (m : EReal)
      ∧ rowMaxR (fun e => (pr e : EReal)) (fun t e => (Tr t e : EReal)) = (m : EReal) := by
  obtain ⟨m, hm⟩ := fold_max_real (Finset.univ : Finset (Fin 2048)) ⟨0, Finset.mem_univ _⟩ (sR pr Tr c)
  refine ⟨m, ?_, ?_⟩
  · unfold rowMaxK
    rw [cNegInf_eq, funext (scoreK_coe pr Tr c hc)]
    exact hm
  · unfold rowMaxR
    rw [cNegInf_eq, funext (scoreR_coe pr Tr c hc), hm]
    exact max_eq_right bot_le

/-- The unnormalised weights are common positive reals, and so is their sum. -/
theorem prob_real (hc : cScale = (c : EReal)) :
    ∃ (q : Fin 2048 → ℝ) (d : ℝ), d ≠ 0
      ∧ (∀ t, probK (fun e => (pr e : EReal)) (fun t e => (Tr t e : EReal)) t = (q t : EReal))
      ∧ (∀ t, probR (fun e => (pr e : EReal)) (fun t e => (Tr t e : EReal)) t = (q t : EReal))
      ∧ denomK (fun e => (pr e : EReal)) (fun t e => (Tr t e : EReal)) = (d : EReal)
      ∧ denomR (fun e => (pr e : EReal)) (fun t e => (Tr t e : EReal)) = (d : EReal) := by
  obtain ⟨m, hK, hR⟩ := rowMaxK_real pr Tr c hc
  have hqK : ∀ t, probK (fun e => (pr e : EReal)) (fun t e => (Tr t e : EReal)) t
      = ((Real.exp (sR pr Tr c t - m) : ℝ) : EReal) := fun t => by
    unfold probK
    rw [scoreK_coe pr Tr c hc, hK, ← EReal.coe_sub, Ideal.exp_coe]
  have hqR : ∀ t, probR (fun e => (pr e : EReal)) (fun t e => (Tr t e : EReal)) t
      = ((Real.exp (sR pr Tr c t - m) : ℝ) : EReal) := fun t => by
    unfold probR
    rw [scoreR_coe pr Tr c hc, hR, ← EReal.coe_sub, Ideal.exp_coe]
  refine ⟨fun t => Real.exp (sR pr Tr c t - m), ∑ t, Real.exp (sR pr Tr c t - m), ?_, hqK, hqR, ?_, ?_⟩
  · exact (Finset.sum_pos (fun t _ => Real.exp_pos _) ⟨0, Finset.mem_univ _⟩).ne'
  · unfold denomK
    rw [coe_sum]
    exact Finset.sum_congr rfl fun t _ => hqK t
  · unfold denomR
    rw [coe_sum]
    exact Finset.sum_congr rfl fun t _ => hqR t

/-- The reciprocal of a nonzero real sum is the real 1/d. -/
theorem recipK_coe (hc : cScale = (c : EReal)) (d : ℝ) (hd : d ≠ 0)
    (hdK : denomK (fun e => (pr e : EReal)) (fun t e => (Tr t e : EReal)) = (d : EReal)) :
    recipK (fun e => (pr e : EReal)) (fun t e => (Tr t e : EReal)) = ((1 / d : ℝ) : EReal) := by
  unfold recipK
  rw [hdK, cOne_eq, Ideal.div_coe hd, one_mul]

/-- A softmax weight is the real q_t · (1/d). -/
theorem attnR_coe (q : Fin 2048 → ℝ) (d : ℝ) (hd : d ≠ 0)
    (hqR : ∀ t, probR (fun e => (pr e : EReal)) (fun t e => (Tr t e : EReal)) t = (q t : EReal))
    (hdR : denomR (fun e => (pr e : EReal)) (fun t e => (Tr t e : EReal)) = (d : EReal)) (t : Fin 2048) :
    attnR (fun e => (pr e : EReal)) (fun t e => (Tr t e : EReal)) t = ((q t * (1 / d) : ℝ) : EReal) := by
  unfold attnR
  rw [hdR, hqR, Ideal.div_coe hd, EReal.coe_mul]

/-- (Σ_t q_t · T t e) · (1/d) = Σ_t (q_t · (1/d)) · T t e. -/
theorem imgRow_eq_real (hc : cScale = (c : EReal)) (e : Fin 1024) :
    imgRowK (fun e => (pr e : EReal)) (fun t e => (Tr t e : EReal)) e
      = imgRowR (fun e => (pr e : EReal)) (fun t e => (Tr t e : EReal)) e := by
  obtain ⟨q, d, hd, hqK, hqR, hdK, hdR⟩ := prob_real pr Tr c hc
  have hL : imgRowK (fun e => (pr e : EReal)) (fun t e => (Tr t e : EReal)) e
      = (((∑ t, q t * Tr t e) * (1 / d) : ℝ) : EReal) := by
    unfold imgRowK
    rw [recipK_coe pr Tr c hc d hd hdK, EReal.coe_mul, coe_sum]
    refine congrArg (fun x : EReal => x * ((1 / d : ℝ) : EReal)) ?_
    exact Finset.sum_congr rfl fun t _ => by rw [hqK t, EReal.coe_mul]
  have hRr : imgRowR (fun e => (pr e : EReal)) (fun t e => (Tr t e : EReal)) e
      = ((∑ t, q t * (1 / d) * Tr t e : ℝ) : EReal) := by
    unfold imgRowR
    rw [coe_sum]
    exact Finset.sum_congr rfl fun t _ => by
      rw [attnR_coe pr Tr q d hd hqR hdR t]; exact (EReal.coe_mul _ _).symm
  rw [hL, hRr, Finset.sum_mul, EReal.coe_eq_coe_iff]
  exact Finset.sum_congr rfl fun t _ => by ring

/-- q_t · (p_e · (1/d)) = (q_t · (1/d)) · p_e. -/
theorem weight_eq_real (hc : cScale = (c : EReal)) (t : Fin 2048) (e : Fin 1024) :
    weightK (fun e => (pr e : EReal)) (fun t e => (Tr t e : EReal)) t e
      = attnR (fun e => (pr e : EReal)) (fun t e => (Tr t e : EReal)) t * (pr e : EReal) := by
  obtain ⟨q, d, hd, hqK, hqR, hdK, hdR⟩ := prob_real pr Tr c hc
  unfold weightK
  rw [recipK_coe pr Tr c hc d hd hdK, attnR_coe pr Tr q d hd hqR hdR t, hqK t,
    ← EReal.coe_mul, ← EReal.coe_mul, ← EReal.coe_mul, EReal.coe_eq_coe_iff]
  ring

end RealRow

end Bridge

/-! ## The row lemmas over extended-real rows known to be real -/

/-- Over a real image row and real text rows the image-side results agree:
    (Σ_t p_t · T t e) · (1 / Σ p) = Σ_t (p_t / Σ p) · T t e, the scores being equal because the scale moves across the sum. -/
theorem imgRow_eq (p : Fin 1024 → EReal) (T : Fin 2048 → Fin 1024 → EReal)
    (hp : ∀ e, ∃ r : ℝ, p e = (r : EReal)) (hT : ∀ t e, ∃ r : ℝ, T t e = (r : EReal)) (e : Fin 1024) :
    imgRowK p T e = imgRowR p T e := by
  choose pr hpr using hp
  choose Tr hTr using hT
  obtain ⟨c, hc⟩ := Bridge.cScale_real
  have hp' : p = fun e => (pr e : EReal) := funext hpr
  have hT' : T = fun t e => (Tr t e : EReal) := funext fun t => funext (hTr t)
  subst hp' hT'
  exact Bridge.imgRow_eq_real pr Tr c hc e

/-- and one image row's addend to the text side is its softmax weight times its entry. -/
theorem weight_eq (p : Fin 1024 → EReal) (T : Fin 2048 → Fin 1024 → EReal)
    (hp : ∀ e, ∃ r : ℝ, p e = (r : EReal)) (hT : ∀ t e, ∃ r : ℝ, T t e = (r : EReal)) (t : Fin 2048) (e : Fin 1024) :
    weightK p T t e = attnR p T t * p e := by
  choose pr hpr using hp
  choose Tr hTr using hT
  obtain ⟨c, hc⟩ := Bridge.cScale_real
  have hp' : p = fun e => (pr e : EReal) := funext hpr
  have hT' : T = fun t e => (Tr t e : EReal) := funext fun t => funext (hTr t)
  subst hp' hT'
  exact Bridge.weight_eq_real pr Tr c hc t e

/-! ## Tiles -/

/-- Eight tiles of 256 rows are the 2048 rows. -/
theorem tiles_sum (f : Fin 2048 → EReal) :
    ∑ j ∈ Finset.range 8, ∑ s' : Fin 256, f (rowOf j s') = ∑ s, f s := by
  rw [Finset.sum_range, ← Fintype.sum_prod_type']
  refine Fintype.sum_equiv (finProdFinEquiv : Fin 8 × Fin 256 ≃ Fin 2048) _ _ fun x => ?_
  refine congrArg f (Fin.ext ?_)
  obtain ⟨j, s'⟩ := x
  have hj := j.isLt
  have hs := s'.isLt
  simp only [rowOf, finProdFinEquiv_apply_val]
  omega

section Arrays
variable (img txt : (⟨3, ![8, 2048, 1024]⟩ : Shape).Idx → EReal) (lw lb : (⟨1, ![1024]⟩ : Shape).Idx → EReal)
  (Wi : (⟨2, ![1024, 1024]⟩ : Shape).Idx → EReal) (bi : (⟨1, ![1024]⟩ : Shape).Idx → EReal)
  (Wt : (⟨2, ![1024, 1024]⟩ : Shape).Idx → EReal) (bt : (⟨1, ![1024]⟩ : Shape).Idx → EReal)

theorem imageOut_eq
    (hip : ∀ b s e, ∃ r : ℝ, ipArr img lw lb Wi bi b s e = (r : EReal))
    (htp : ∀ b t e, ∃ r : ℝ, tpArr txt lw lb Wt bt b t e = (r : EReal)) (b : Fin 8) (s : Fin 2048) (e : Fin 1024) :
    imageOutK img txt lw lb Wi bi Wt bt b s e = imageOutR img txt lw lb Wi bi Wt bt b s e := by
  unfold imageOutK imageOutR
  exact imgRow_eq _ _ (hip b s) (htp b) e

theorem textOut_eq
    (hip : ∀ b s e, ∃ r : ℝ, ipArr img lw lb Wi bi b s e = (r : EReal))
    (htp : ∀ b t e, ∃ r : ℝ, tpArr txt lw lb Wt bt b t e = (r : EReal)) (b : Fin 8) (t : Fin 2048) (e : Fin 1024) :
    textOutK img txt lw lb Wi bi Wt bt b t e = textOutR img txt lw lb Wi bi Wt bt b t e := by
  unfold textOutK textOutR
  rw [zero_add]
  refine (tiles_sum fun s => weightK (ipArr img lw lb Wi bi b s) (tpArr txt lw lb Wt bt b) t e).trans ?_
  exact Finset.sum_congr rfl fun s _ => weight_eq _ _ (hip b s) (htp b) t e

end Arrays

end Cert.Spec

end
-- ==== Proof.RealRows.lean ====
/-
  A projected row of real inputs is real: the variance is a mean of squares, so variance + ε is positive and its
  reciprocal square root is a real number.
-/
import proofs.«423824_j47811575939396_3_alg».proof.Proof.Spec

noncomputable section

namespace Cert.Spec

open Idealize.ShloMosaic

/-! ## The real numbers inside the extended reals are closed under the ring operations and finite sums -/

/-- A finite sum of real numbers, each read as an extended real, is the real sum read as an extended real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha
  obtain ⟨s, rfl⟩ := hb
  exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_sum {ι : Type} (s : Finset ι) {f : ι → EReal} (h : ∀ i, ∃ r : ℝ, f i = (r : EReal)) :
    ∃ r : ℝ, ∑ i ∈ s, f i = (r : EReal) := by
  choose g hg using h
  exact ⟨∑ i ∈ s, g i, by simp only [hg]; exact coe_sum s g⟩

/-! ## The two float words the normalisation spells -/

/-- The word `0x44800000` denotes the real number 1024. -/
theorem cN_eq : cN = ((1024 : ℝ) : EReal) := by
  simp [Ideal.ofBits, Ideal.ieee, -EReal.coe_mul]; norm_num

/-- The word `0x3727C5AC` denotes a positive real number: a positive significand times a power of two. -/
theorem cEps_pos : ∃ ε : ℝ, 0 < ε ∧ cEps = (ε : EReal) := by
  refine ⟨(2 ^ 23 + 2606508 : ℕ) * (2 : ℝ) ^ ((110 : ℤ) - (2 ^ (8 - 1) - 1) - 23), by positivity, ?_⟩
  simp [Ideal.ofBits, Ideal.ieee, -EReal.coe_mul]

/-- Dividing a real number by the word for 1024 is real division by 1024. -/
theorem div_cN (a : ℝ) : Ideal.div (a : EReal) cN = ((a / 1024 : ℝ) : EReal) := by
  rw [cN_eq, Ideal.div_coe (by norm_num), ← EReal.coe_mul]
  congr 1
  ring

/-- The reciprocal square root of a positive real number is a real number. -/
theorem rsqrt_real {v ε : ℝ} (hv : 0 ≤ v) (hε : 0 < ε) : ∃ r : ℝ, Ideal.rsqrt ((v : EReal) + (ε : EReal)) = (r : EReal) := by
  have hpos : 0 < v + ε := by linarith
  rw [← EReal.coe_add, Ideal.rsqrt_coe, if_neg (not_lt.mpr hpos.le), if_neg hpos.ne']
  exact ⟨_, rfl⟩

/-! ## One row -/

section Row
variable (x : Fin 1024 → EReal) (hx : ∀ d, ∃ r : ℝ, x d = (r : EReal))
include hx

theorem mean_real : ∃ r : ℝ, mean x = (r : EReal) := by
  obtain ⟨r, hr⟩ := real_sum Finset.univ hx
  unfold mean
  rw [hr, div_cN]
  exact ⟨_, rfl⟩

theorem centred_real (d : Fin 1024) : ∃ r : ℝ, centred x d = (r : EReal) :=
  real_sub (hx d) (mean_real x hx)

/-- The variance of a real row is a nonnegative real number: a sum of squares over 1024. -/
theorem variance_real : ∃ v : ℝ, 0 ≤ v ∧ variance x = (v : EReal) := by
  choose c hc using centred_real x hx
  refine ⟨(∑ d, c d * c d) / 1024, div_nonneg (Finset.sum_nonneg fun d _ => mul_self_nonneg (c d)) (by norm_num), ?_⟩
  unfold variance
  simp only [hc, ← EReal.coe_mul]
  rw [coe_sum, div_cN]

end Row

/-- One normalised entry of real data is real. -/
theorem lnorm_real (x w b : Fin 1024 → EReal)
    (hx : ∀ d, ∃ r : ℝ, x d = (r : EReal)) (hw : ∀ d, ∃ r : ℝ, w d = (r : EReal)) (hb : ∀ d, ∃ r : ℝ, b d = (r : EReal))
    (d : Fin 1024) : ∃ r : ℝ, lnorm x w b d = (r : EReal) := by
  obtain ⟨v, hv, hvq⟩ := variance_real x hx
  obtain ⟨ε, hε, hεq⟩ := cEps_pos
  unfold lnorm
  rw [hvq, hεq]
  exact real_add (real_mul (real_mul (centred_real x hx d) (rsqrt_real hv hε)) (hw d)) (hb d)

/-- One projected entry of real data is real. -/
theorem proj_real (x w b : Fin 1024 → EReal) (W : Fin 1024 → Fin 1024 → EReal) (bias : Fin 1024 → EReal)
    (hx : ∀ d, ∃ r : ℝ, x d = (r : EReal)) (hw : ∀ d, ∃ r : ℝ, w d = (r : EReal)) (hb : ∀ d, ∃ r : ℝ, b d = (r : EReal))
    (hW : ∀ e d, ∃ r : ℝ, W e d = (r : EReal)) (hbias : ∀ e, ∃ r : ℝ, bias e = (r : EReal)) (e : Fin 1024) :
    ∃ r : ℝ, proj x w b W bias e = (r : EReal) := by
  unfold proj
  exact real_add (real_sum _ fun d => real_mul (lnorm_real x w b hx hw hb d) (hW e d)) (hbias e)

/-- So a tower's projected rows are real when its arrays are. -/
theorem projArr_real (lw lb : (⟨1, ![1024]⟩ : Shape).Idx → EReal) (x : (⟨3, ![8, 2048, 1024]⟩ : Shape).Idx → EReal)
    (W : (⟨2, ![1024, 1024]⟩ : Shape).Idx → EReal) (bias : (⟨1, ![1024]⟩ : Shape).Idx → EReal)
    (hlw : ∀ i, ∃ r : ℝ, lw i = (r : EReal)) (hlb : ∀ i, ∃ r : ℝ, lb i = (r : EReal))
    (hx : ∀ i, ∃ r : ℝ, x i = (r : EReal)) (hW : ∀ i, ∃ r : ℝ, W i = (r : EReal)) (hbias : ∀ i, ∃ r : ℝ, bias i = (r : EReal))
    (b : Fin 8) (s : Fin 2048) (e : Fin 1024) : ∃ r : ℝ, projArr lw lb x W bias b s e = (r : EReal) := by
  unfold projArr
  exact proj_real _ _ _ _ _ (fun d => hx _) (fun d => hlw _) (fun d => hlb _) (fun e d => hW _) (fun e => hbias _) e

end Cert.Spec

end
-- ==== Proof.FiniteInputs.lean ====
/-
  The precondition read back: where `finite_inputs` is all ones, every entry of every argument array has absolute
  value below +∞, so it is a real number.
-/
import proofs.«423824_j47811575939396_3_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic Cert.Pre_finite_inputs

/-- The word `0x7F800000` denotes +∞. -/
theorem ofBits_inf : Ideal.ofBits .f32 0x7F800000#32 = (⊤ : EReal) := by
  simp [Ideal.ofBits, Ideal.ieee]

/-- An extended real whose absolute value `max x (-x)` compares below +∞ is a real number: at +∞ the maximum is +∞
    itself, and at -∞ its negation is. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- The result shape of a reduction over all axes has a single index. -/
instance : Subsingleton S_.Idx := ⟨fun a b => funext fun d => d.elim0⟩

/-- One conjunct of the precondition: when the conjunction over all entries of `|a| < +∞` is one, every entry of `a` is
    real. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ValueIdx.ix0 = 1#1) (i : s.Idx) : ∃ r : ℝ, a i = (r : EReal) :=
  real_of_abs_lt (a i) (Host.reduce_andi_all _ _ hr hu _ h i)

/-- Every entry of the eight arrays is real when the printed precondition is all ones at the extended reals. -/
theorem real_of_pre [Cert.Pre_finite_inputs.Facts]
    (a0 a1 : FVec Ideal S8x2048x1024 .f32) (a2 a3 : FVec Ideal S1024 .f32) (a4 : FVec Ideal S1024x1024 .f32)
    (a5 : FVec Ideal S1024 .f32) (a6 : FVec Ideal S1024x1024 .f32) (a7 : FVec Ideal S1024 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) := by
  have h0 := congrFun h ValueIdx.ix0
  unfold Cert.Pre_finite_inputs.fn Cert.Pre_finite_inputs.fn_part1 Cert.Pre_finite_inputs.fn_part2 at h0
  dsimp only [andi] at h0
  simp only [IntOp.andi_eq_one] at h0
  obtain ⟨⟨⟨⟨⟨⟨⟨e0, e1⟩, e2⟩, e3⟩, e4⟩, e5⟩, e6⟩, e7⟩ := h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7⟩

end Cert.FiniteInputs

end
-- ==== Proof.lean ====
/-
  Both programs compute, at the extended reals, the cross-attention of the specification; where the inputs are
  finite every projected row is real, and there the two arrangements of the softmax agree entry by entry.
-/
import proofs.«423824_j47811575939396_3_alg».proof.Defs
import proofs.«423824_j47811575939396_3_alg».proof.Proof.Gen.Kernel
import proofs.«423824_j47811575939396_3_alg».proof.Proof.Gen.Kernel.Skeleton
import proofs.«423824_j47811575939396_3_alg».proof.Proof.Gen.Kernel.Launch
import proofs.«423824_j47811575939396_3_alg».proof.Proof.Gen.Kernel.Points
import proofs.«423824_j47811575939396_3_alg».proof.Proof.Gen.Kernel.Frame
import proofs.«423824_j47811575939396_3_alg».proof.Proof.Gen.KernelIdeal
import proofs.«423824_j47811575939396_3_alg».proof.Proof.Gen.KernelIdeal.Skeleton
import proofs.«423824_j47811575939396_3_alg».proof.Proof.Gen.KernelIdeal.Launch
import proofs.«423824_j47811575939396_3_alg».proof.Proof.Gen.KernelIdeal.Points
import proofs.«423824_j47811575939396_3_alg».proof.Proof.Gen.KernelIdeal.Frame
import proofs.«423824_j47811575939396_3_alg».proof.Proof.Gen.ReferenceIdeal
import proofs.«423824_j47811575939396_3_alg».proof.Proof.Gen.Pre_finite_inputs
import proofs.«423824_j47811575939396_3_alg».proof.Proof.Gen.ReferenceIdeal.Run
import proofs.«423824_j47811575939396_3_alg».proof.Proof.Gen.ReferenceIdeal.Read
import Idealize.ShloMosaic.Adequacy
import Idealize.ShloMosaic.Init
import proofs.«423824_j47811575939396_3_alg».proof.Proof.KernelValue
import proofs.«423824_j47811575939396_3_alg».proof.Proof.RefValue
import proofs.«423824_j47811575939396_3_alg».proof.Proof.Bridge
import proofs.«423824_j47811575939396_3_alg».proof.Proof.RealRows
import proofs.«423824_j47811575939396_3_alg».proof.Proof.FiniteInputs

noncomputable section

namespace Cert.Proof

open Idealize.ShloMosaic Idealize.ShloMosaic.TcCoe Idealize.SL.Sem Idealize.ShloMosaic.ValueIdx
open Cert.KernelIdeal.KernelValue (arr3 arr3_apply)

/-! ## The second program's results are the first program's, where the inputs are finite -/

section Results
variable (x0 x1 : (⟨Cert.ReferenceIdeal.S8x2048x1024, .f32⟩ : BufTy).Contents (Elt Ideal))
  (x2 x3 : (⟨Cert.ReferenceIdeal.S1024, .f32⟩ : BufTy).Contents (Elt Ideal))
  (x4 : (⟨Cert.ReferenceIdeal.S1024x1024, .f32⟩ : BufTy).Contents (Elt Ideal))
  (x5 : (⟨Cert.ReferenceIdeal.S1024, .f32⟩ : BufTy).Contents (Elt Ideal))
  (x6 : (⟨Cert.ReferenceIdeal.S1024x1024, .f32⟩ : BufTy).Contents (Elt Ideal))
  (x7 : (⟨Cert.ReferenceIdeal.S1024, .f32⟩ : BufTy).Contents (Elt Ideal))
  (h : Cert.Pre_finite_inputs.fn (F := Ideal) x0 x1 x2 x3 x4 x5 x6 x7 = fun _ => 1#1)
include h

/-- Finite inputs: both towers' projected rows are real numbers. -/
theorem towers_real :
    (∀ b s e, ∃ r : ℝ, Cert.Spec.ipArr x0 x2 x3 x4 x5 b s e = (r : EReal))
    ∧ (∀ b t e, ∃ r : ℝ, Cert.Spec.tpArr x1 x2 x3 x6 x7 b t e = (r : EReal)) := by
  obtain ⟨h0, h1, h2, h3, h4, h5, h6, h7⟩ := Cert.FiniteInputs.real_of_pre x0 x1 x2 x3 x4 x5 x6 x7 h
  exact ⟨Cert.Spec.projArr_real x2 x3 x0 x4 x5 h2 h3 h0 h4 h5, Cert.Spec.projArr_real x2 x3 x1 x6 x7 h2 h3 h1 h6 h7⟩

/-- The second program's image-side result is the first program's. -/
theorem result0_eq : Cert.ReferenceIdeal.Read.val_main_v70 (F := Ideal) x0 x1 x2 x3 x4 x5 x6 x7
    = arr3 (Cert.Spec.imageOutK x0 x1 x2 x3 x4 x5 x6 x7) := by
  obtain ⟨hip, htp⟩ := towers_real x0 x1 x2 x3 x4 x5 x6 x7 h
  funext i
  obtain ⟨b, s, e, rfl⟩ : ∃ (b : Fin 8) (s : Fin 2048) (e : Fin 1024), i = ix3 b s e := ⟨i 0, i 1, i 2, eq_ix3 i⟩
  rw [Cert.ReferenceIdeal.RefValue.result0_apply, arr3_apply]
  exact (Cert.Spec.imageOut_eq x0 x1 x2 x3 x4 x5 x6 x7 hip htp b s e).symm

/-- The second program's text-side result is the first program's. -/
theorem result1_eq : Cert.ReferenceIdeal.Read.val_main_v71 (F := Ideal) x0 x1 x2 x3 x4 x5 x6 x7
    = arr3 (Cert.Spec.textOutK x0 x1 x2 x3 x4 x5 x6 x7) := by
  obtain ⟨hip, htp⟩ := towers_real x0 x1 x2 x3 x4 x5 x6 x7 h
  funext i
  obtain ⟨b, t, e, rfl⟩ : ∃ (b : Fin 8) (t : Fin 2048) (e : Fin 1024), i = ix3 b t e := ⟨i 0, i 1, i 2, eq_ix3 i⟩
  rw [Cert.ReferenceIdeal.RefValue.result1_apply, arr3_apply]
  exact (Cert.Spec.textOut_eq x0 x1 x2 x3 x4 x5 x6 x7 hip htp b t e).symm

end Results

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories agreeing on the arguments, of finite entries, both programs end with the first program's two
    results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v70_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact result0_eq _ _ _ _ _ _ _ _ (hpre c)
  · rw [Cert.ReferenceIdeal.Read.val_main_v71_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact result1_eq _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
